-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S128x100000 : Shape := ⟨2, ![128, 100000]⟩
abbrev S100000x128 : Shape := ⟨2, ![100000, 128]⟩
abbrev S5000x128 : Shape := ⟨2, ![5000, 128]⟩
abbrev S20x128 : Shape := ⟨2, ![20, 128]⟩
abbrev S128 : Shape := ⟨1, ![128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S128x100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S100000x128, .bf16⟩
  | .local _ .vmem, ⟨7, _⟩ => ⟨S20x128, .f32⟩
  | .local _ .vmem, ⟨8, _⟩ => ⟨S20x128, .f32⟩
  | .local _ .vmem, ⟨9, _⟩ => ⟨S20x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c20_i32 : BitVec 32 := 20#32
  let v0 : BitVec 1 := Scalar.cmpi .slt arg0 c20_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c5000_i32 : BitVec 32 := 5000#32
  let v22 : BitVec 32 := Scalar.muli arg0 c5000_i32
  let v23 : Index := Scalar.indexCast v22
  let c0_8 : Index := 0#32
  ![v23.toNat, 0]
def k0_off2 (i : grid0.Coords) : Fin 2 → Nat :=
  let arg0 : BitVec 32 := BitVec.ofNat 32 (i 0).val
  let v27 : Index := Scalar.indexCast arg0
  let c0_9 : Index := 0#32
  ![v27.toNat, 0]
def k0_cond3 (i : grid0.Coords) : BitVec 1 :=
  let arg0 : BitVec 32 := BitVec.ofNat 32 (i 0).val
  let c20_i32_2 : BitVec 32 := 20#32
  let v6 : BitVec 1 := Scalar.cmpi .sge arg0 c20_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let arg0 : BitVec 32 := BitVec.ofNat 32 (i 0).val
  let c20_i32_4 : BitVec 32 := 20#32
  let v9 : BitVec 32 := Scalar.subi arg0 c20_i32_4
  let c5000_i32 : BitVec 32 := 5000#32
  let v10 : BitVec 32 := Scalar.muli v9 c5000_i32
  let v11 : Index := Scalar.indexCast v10
  let c0 : Index := 0#32
  ![v11.toNat, 0]
def k0_off4 (i : grid0.Coords) : Fin 2 → Nat :=
  let arg0 : BitVec 32 := BitVec.ofNat 32 (i 0).val
  let c20_i32_4 : BitVec 32 := 20#32
  let v9 : BitVec 32 := Scalar.subi arg0 c20_i32_4
  let v14 : Index := Scalar.indexCast v9
  let c0_5 : Index := 0#32
  ![v14.toNat, 0]
def cc0_transform_0 (i : grid0.Coords) : Fin 2 → Nat :=
  let arg0 : BitVec 32 := BitVec.ofNat 32 (i 0).val
  let c20_i32 : BitVec 32 := 20#32
  let v0 : BitVec 1 := Scalar.cmpi .slt arg0 c20_i32
  let c19_i32 : BitVec 32 := 19#32
  let v1 : BitVec 32 := Scalar.select v0 arg0 c19_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c20_i32 : BitVec 32 := 20#32
  let v0 : BitVec 1 := Scalar.cmpi .slt arg0 c20_i32
  let c19_i32 : BitVec 32 := 19#32
  let v1 : BitVec 32 := Scalar.select v0 arg0 c19_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c20_i32 : BitVec 32 := 20#32
  let v0 : BitVec 1 := Scalar.cmpi .slt arg0 c20_i32
  let c20_i32_0 : BitVec 32 := 20#32
  let v1 : BitVec 32 := Scalar.subi arg0 c20_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x100000_S100000x128_1_0 : S128x100000.Transposes [1, 0] S100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  shapeCasts_S128_S1x128 : S128.ShapeCasts S1x128
  broadcasts_S1x128_S5000x128 : S1x128.Broadcasts S5000x128
  bitsLt_bf16_f32 : FTy.bits .bf16 < FTy.bits .f32
  h_S1x128 : 0 < S1x128.numel
  shapeCasts_S1x128_S1x128 : S1x128.ShapeCasts S1x128
  inb_S20x128_S20x128_0_0 : ∀ a, (![0, 0] : Fin 2 → Nat) a + S20x128.size a ≤ S20x128.size a
  h_S20x128 : 0 < S20x128.numel
  reduces_S20x128_S128 : S20x128.Reduces [0] S128
  broadcasts_S1x128_S20x128 : S1x128.Broadcasts S20x128
  shapeCasts_S20x128_S20x128 : S20x128.ShapeCasts S20x128
  transposes_S100000x128_S128x100000_1_0 : S100000x128.Transposes [1, 0] S128x100000
  hrank0 : 0 < grid0.rank
  k0_off1_inb : ∀ i : grid0.Coords, ∀ (k0_h1 : k0_cond1 i = 1#1), ∀ a, (k0_off1 i) a + S5000x128.size a ≤ S100000x128.size a
  k0_off1_packedbf16 : ∀ i : grid0.Coords, ∀ (k0_h1 : k0_cond1 i = 1#1), (Rect.unit (s := S100000x128) (k0_off1 i) S5000x128.size (k0_off1_inb i k0_h1)).PackedRows (EltTy.packing .bf16)
  k0_off2_inb : ∀ i : grid0.Coords, ∀ (k0_h1 : k0_cond1 i = 1#1), ∀ a, (k0_off2 i) a + S1x128.size a ≤ S20x128.size a
  k0_off3_inb : ∀ i : grid0.Coords, ∀ (k0_h3 : k0_cond3 i = 1#1), ∀ a, (k0_off3 i) a + S5000x128.size a ≤ S100000x128.size a
  k0_off4_inb : ∀ i : grid0.Coords, ∀ (k0_h3 : k0_cond3 i = 1#1), ∀ a, (k0_off4 i) a + S1x128.size a ≤ S20x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 20
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S_, .f32⟩
  | .hbm, ⟨4, _⟩ => ⟨S128x100000, .f32⟩
  | .hbm, ⟨5, _⟩ => ⟨S128x100000, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S128x100000, .f32⟩
  | .hbm, ⟨19, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S128x100000 : S_.BroadcastsInDim S128x100000 (![] : Fin 0 → Fin S128x100000.rank)
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.KRuns.lean ====
import proofs.«140306_g81492709474519_cont_9to1c4b_556_12_alg».proof.Proof.Gen.Kernel.Frame
import proofs.«140306_g81492709474519_cont_9to1c4b_556_12_alg».proof.Proof.Gen.Kernel.Skeleton
import Idealize.ShloMosaic.Lib.Pipeline.Value
import Idealize.ShloMosaic.Lib.WritesUnit

set_option maxRecDepth 16384

noncomputable section

/-!
  The kernel body, run once for each of the three kinds of grid point.

  The grid has 40 points.  At a point `t < 20` the body reads chunk `t` of the two inputs, and stores the chunk's
  exponentials (taken against the chunk's own maximum) into rows `[5000 t, 5000 t + 5000)` of the first scratch, the
  chunk's maximum into row `t` of the second and the chunk's sum into row `t` of the third; it touches nothing else.
  At point 20 it reads the second and third scratch whole, stores the twenty per-chunk factors into the fourth, and
  then does what every later point does.  At a point `t ≥ 20` it reads rows `[5000 (t - 20), …)` of the first scratch
  and row `t - 20` of the fourth, and stores their product into the output's staging buffer, whole.

  Each theorem states one of these runs over arbitrary staging and scratch memrefs, with the contents left behind
  written out: a buffer stored into in part is the list of its writes over what it held, a buffer stored whole holds
  the stored value.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The middle conditional's test, "the grid coordinate is 20", as the body computes it. -/
abbrev condMid (i : grid0.Coords) : Prop :=
  (Scalar.cmpi .ne (Scalar.extui (Scalar.cmpi .eq (BitVec.ofNat 32 (i 0).val) 20#32)) 0#32) = 1#1

/-- The offsets of a rectangle that starts at the origin. -/
theorem off0 : (![0, 0] : Fin 2 → ℕ) = fun _ => 0 := funext fun a => by fin_cases a <;> rfl

/-- The rectangle that is a whole 5000 × 128 block. -/
abbrev rBlk : Rect S5000x128 := Rect.unit (s := S5000x128) ![0, 0] S5000x128.size inb_S5000x128_S5000x128_0_0
/-- The rectangle that is a whole 20 × 128 table. -/
abbrev rTab : Rect S20x128 := Rect.unit (s := S20x128) ![0, 0] S20x128.size inb_S20x128_S20x128_0_0

/-- One store through the whole-block rectangle covers every index of the block. -/
theorem cover_blk (w : Vec F S5000x128 .f32) (y : S5000x128.Idx) :
    ∃ pc ∈ ([⟨rBlk, w⟩] : List (View.Piece (Elt F) S5000x128 .f32)), y ∈ pc.1.set :=
  View.cover_of_tiled [⟨rBlk, w⟩] S5000x128.size (by rfl) y

/-- One store through the whole-table rectangle covers every index of the table. -/
theorem cover_tab (w : Vec F S20x128 .f32) (y : S20x128.Idx) :
    ∃ pc ∈ ([⟨rTab, w⟩] : List (View.Piece (Elt F) S20x128 .f32)), y ∈ pc.1.set :=
  View.cover_of_tiled [⟨rTab, w⟩] S20x128.size (by rfl) y

/-- A load of a whole block from a buffer that reads `x` is `x`. -/
theorem readAt_blk (arg : Memref sig .tc .vmem S5000x128 .f32) (h : arg.IsWhole) (x : Vec F S5000x128 .f32) :
    View.readAt (Elt F) arg.view rBlk.toLoadRect (h.unread x) = x := by
  rw [View.readAt_eq_ld, h.read_unread, View.ld_unit_zero (S := S5000x128) off0]

/-- A load of a whole table from a buffer that reads `x` is `x`. -/
theorem readAt_tab (arg : Memref sig .tc .vmem S20x128 .f32) (h : arg.IsWhole) (x : Vec F S20x128 .f32) :
    View.readAt (Elt F) arg.view rTab.toLoadRect (h.unread x) = x := by
  rw [View.readAt_eq_ld, h.read_unread, View.ld_unit_zero (S := S20x128) off0]

/-- A point of the first pass: the three partial stores, over what the three scratch buffers held. -/
theorem run_first (c : Dev nD) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S100000x128 .bf16) (harg4 : arg4.IsWhole)
    (arg5 : Memref sig .tc .vmem S20x128 .f32) (harg5 : arg5.IsWhole) (arg6 : Memref sig .tc .vmem S20x128 .f32) (harg6 : arg6.IsWhole)
    (arg7 : Memref sig .tc .vmem S20x128 .f32) (harg7 : arg7.IsWhole)
    (hc1 : k0_cond1 i = 1#1) (hc2 : ¬condMid i) (hc3 : ¬k0_cond3 i = 1#1)
    (x0 x1 : Vec F S5000x128 .f32)
    (f4 : Buf (Elt F) (arg4.view.loc (c : Thread nD τ))) (f5 : Buf (Elt F) (arg5.view.loc (c : Thread nD τ)))
    (f6 : Buf (Elt F) (arg6.view.loc (c : Thread nD τ)))
    (E : Set ℕ) (K : PUnit → sProp 𝕄) :
    iprop(owns (c : Thread nD τ) arg1 fullShare x0 ∗ owns (c : Thread nD τ) arg2 fullShare x1
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (iprop(owns (c : Thread nD τ) arg1 fullShare x0 ∗ owns (c : Thread nD τ) arg2 fullShare x1
            ∗ (arg4.view.loc (c : Thread nD τ) ↦[arg4.view.set]{fullShare}
                arg4.view.writes (Elt F) f4 [⟨Rect.unit (s := S100000x128) (k0_off1 i) S5000x128.size (k0_off1_inb i hc1), k0_pay4 x0 x1⟩])
            ∗ (arg5.view.loc (c : Thread nD τ) ↦[arg5.view.set]{fullShare}
                arg5.view.writes (Elt F) f5 [⟨Rect.unit (s := S20x128) (k0_off2 i) S1x128.size (k0_off2_inb i hc1), k0_pay5 x0 x1⟩])
            ∗ (arg6.view.loc (c : Thread nD τ) ↦[arg6.view.set]{fullShare}
                arg6.view.writes (Elt F) f6 [⟨Rect.unit (s := S20x128) (k0_off2 i) S1x128.size (k0_off2_inb i hc1), k0_pay6 x0 x1⟩])) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%g0, %hg0, H0⟩, ⟨%g1, %hg1, H1⟩, H4, H5, H6, Hk⟩
  obtain rfl := harg1.eq_unread hg0; obtain rfl := harg2.eq_unread hg1
  sl_exec (disch := first | exact hc1 | exact hc2 | exact hc3)
  sl_step
  rw [readAt_blk arg1 harg1 x0, readAt_blk arg2 harg2 x1]
  iapply Hk
  isplitl [H0]
  · iexists _; isplitr; · ipureintro; exact harg1.read_unread _
    iexact H0
  isplitl [H1]
  · iexists _; isplitr; · ipureintro; exact harg2.read_unread _
    iexact H1
  isplitl [H4]; · iexact H4
  isplitl [H5]; · iexact H5
  iexact H6

/-- A point of the second pass after the first of them: one chunk of the first scratch times one row of the fourth. -/
theorem run_last (c : Dev nD) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S100000x128 .bf16) (harg4 : arg4.IsWhole)
    (arg5 : Memref sig .tc .vmem S20x128 .f32) (harg5 : arg5.IsWhole) (arg6 : Memref sig .tc .vmem S20x128 .f32) (harg6 : arg6.IsWhole)
    (arg7 : Memref sig .tc .vmem S20x128 .f32) (harg7 : arg7.IsWhole)
    (hc1 : ¬k0_cond1 i = 1#1) (hc2 : ¬condMid i) (hc3 : k0_cond3 i = 1#1)
    (fb : Vec F S20x128 .f32)
    (f4 : Buf (Elt F) (arg4.view.loc (c : Thread nD τ)))
    (E : Set ℕ) (K : PUnit → sProp 𝕄) :
    iprop((∃ d, owns (c : Thread nD τ) arg3 fullShare d)
        ∗ (arg4.view.loc (c : Thread nD τ) ↦[arg4.view.set]{fullShare} f4)
        ∗ owns (c : Thread nD τ) arg7 fullShare fb
        ∗ (iprop(owns (c : Thread nD τ) arg3 fullShare
              (k0_pay8 (View.readAt (Elt F) arg4.view (Rect.unit (s := S100000x128) (k0_off3 i) S5000x128.size (k0_off3_inb i hc3)).toLoadRect f4)
                (View.ld fb (Rect.unit (s := S20x128) (k0_off4 i) S1x128.size (k0_off4_inb i hc3))))
            ∗ (arg4.view.loc (c : Thread nD τ) ↦[arg4.view.set]{fullShare} f4)
            ∗ owns (c : Thread nD τ) arg7 fullShare fb) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%d3, %g3, -, H3⟩, H4, ⟨%g7, %hg7, H7⟩, Hk⟩
  obtain rfl := harg7.eq_unread hg7
  sl_exec (disch := first | exact hc1 | exact hc2 | exact hc3)
  sl_step
  iapply Hk
  isplitl [H3]
  · iexists _; isplitr
    swap; · iexact H3
    ipureintro
    rw [View.read_writes_eq_canon _ _ _ (cover_blk _), View.canon_unit_zero off0, View.readAt_eq_ld (v := arg7.view), harg7.read_unread]
  isplitl [H4]; · iexact H4
  iexists _; isplitr; · ipureintro; exact harg7.read_unread _
  iexact H7

/-- Point 20, where the second pass begins. -/
abbrev t20 : Fin cfg0.N := ⟨20, by decide⟩
/-- Its grid coordinates. -/
abbrev i20 : grid0.Coords := grid0.coords t20
/-- At point 20 the second pass reads row 0 of the factor table, -/
instance : ClosedOff (k0_off4 i20) := ⟨![0, 0], by decide +kernel⟩
/-- and rows from 0 on of the first scratch. -/
instance : ClosedOff (k0_off3 i20) := ⟨![0, 0], by decide +kernel⟩

/-- Point 20: the factor table is computed from the two small tables as they stand and stored whole; the point's output
    is then chunk 0 of the first scratch times row 0 of that table. -/
theorem run_mid (c : Dev nD)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S100000x128 .bf16) (harg4 : arg4.IsWhole)
    (arg5 : Memref sig .tc .vmem S20x128 .f32) (harg5 : arg5.IsWhole) (arg6 : Memref sig .tc .vmem S20x128 .f32) (harg6 : arg6.IsWhole)
    (arg7 : Memref sig .tc .vmem S20x128 .f32) (harg7 : arg7.IsWhole)
    (hc1 : ¬k0_cond1 i20 = 1#1) (hc2 : condMid i20) (hc3 : k0_cond3 i20 = 1#1)
    (f4 : Buf (Elt F) (arg4.view.loc (c : Thread nD τ))) (f5 : Buf (Elt F) (arg5.view.loc (c : Thread nD τ)))
    (f6 : Buf (Elt F) (arg6.view.loc (c : Thread nD τ)))
    (E : Set ℕ) (K : PUnit → sProp 𝕄) :
    iprop((arg5.view.loc (c : Thread nD τ) ↦[arg5.view.set]{fullShare} f5)
        ∗ (arg6.view.loc (c : Thread nD τ) ↦[arg6.view.set]{fullShare} f6)
        ∗ (∃ f7, arg7.view.loc (c : Thread nD τ) ↦[arg7.view.set]{fullShare} f7)
        ∗ (∃ d, owns (c : Thread nD τ) arg3 fullShare d)
        ∗ (arg4.view.loc (c : Thread nD τ) ↦[arg4.view.set]{fullShare} f4)
        ∗ (iprop((arg5.view.loc (c : Thread nD τ) ↦[arg5.view.set]{fullShare} f5)
            ∗ (arg6.view.loc (c : Thread nD τ) ↦[arg6.view.set]{fullShare} f6)
            ∗ owns (c : Thread nD τ) arg7 fullShare
                (k0_pay7 (View.readAt (Elt F) arg5.view rTab.toLoadRect f5) (View.readAt (Elt F) arg6.view rTab.toLoadRect f6))
            ∗ owns (c : Thread nD τ) arg3 fullShare
              (k0_pay8 (View.readAt (Elt F) arg4.view (Rect.unit (s := S100000x128) (k0_off3 i20) S5000x128.size (k0_off3_inb i20 hc3)).toLoadRect f4)
                (View.ld (k0_pay7 (View.readAt (Elt F) arg5.view rTab.toLoadRect f5) (View.readAt (Elt F) arg6.view rTab.toLoadRect f6))
                  (Rect.unit (s := S20x128) (k0_off4 i20) S1x128.size (k0_off4_inb i20 hc3))))
            ∗ (arg4.view.loc (c : Thread nD τ) ↦[arg4.view.set]{fullShare} f4)) -∗ K ⟨⟩))
      ⊢ wp frame (wpE (defs₀ (F := F)) Variants.none c none) E (cc0_body i20 arg1 harg1 arg2 harg2 arg3 harg3 arg4 harg4 arg5 harg5 arg6 harg6 arg7 harg7) K := by
  simp only [cc0_body_eq_skeleton]; unfold cc0_body_skel
  unfold owns
  iintro ⟨H5, H6, ⟨%f7, H7⟩, ⟨%d3, %g3, -, H3⟩, H4, Hk⟩
  sl_exec (disch := first | exact hc1 | exact hc2 | exact hc3)
  sl_step
  iapply Hk
  isplitl [H5]; · iexact H5
  isplitl [H6]; · iexact H6
  isplitl [H7]
  · iexists _; isplitr
    swap; · iexact H7
    ipureintro
    sl_unfold_words
    rw [View.read_writes_eq_canon _ _ _ (cover_tab _), View.canon_unit_zero off0]
  isplitl [H3]
  · iexists _; isplitr
    swap; · iexact H3
    ipureintro
    sl_unfold_words
    rw [View.read_writes_eq_canon _ _ _ (cover_blk _), View.canon_unit_zero off0,
      View.readCov_eq_canon_ld _ _ _ (cover_tab _), View.canon_unit_zero off0]
  iexact H4

end Cert.Kernel.Body

end
-- ==== Proof.KData.lean ====
import proofs.«140306_g81492709474519_cont_9to1c4b_556_12_alg».proof.Proof.KRuns
import Idealize.ShloMosaic.Lib.ValueIdx
import Idealize.ShloMosaic.Lib.Pipeline.Value
import Idealize.ShloMosaic.Lib.WritesUnit

set_option maxRecDepth 16384

noncomputable section

/-!
  What the scratch buffers hold from point to point, and the pipeline's proof data.

  After `n ≤ 20` points of the first pass the first scratch holds, over whatever it held at the start, the exponentials
  of chunks `0 … n - 1` in their row ranges, and the second and third hold those chunks' maxima and sums in rows
  `0 … n - 1`: three lists of equal-sized tiles that the row coordinate keeps apart.  From point 20 on the lists are
  complete (twenty tiles each), so every row of the two small tables is a known function of the inputs (`tabMax`,
  `tabSum`), and the fourth scratch holds the factor table computed from them (`tabFac`).  The output block written at
  a point `t ≥ 20` is chunk `t - 20`'s exponentials times row `t - 20` of the factor table (`outAt`).
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The forty points, decided -/

/-- The first pass is the points below 20; -/
theorem hcond1 : ∀ t : Fin cfg0.N, k0_cond1 (grid0.coords t) = 1#1 ↔ t.val < 20 :=
  (by decide +kernel : ∀ t : Fin grid0.N, k0_cond1 (grid0.coords t) = 1#1 ↔ t.val < 20)
/-- the factor table is computed at point 20; -/
theorem hcondMid : ∀ t : Fin cfg0.N, condMid (grid0.coords t) ↔ t.val = 20 :=
  (by decide +kernel : ∀ t : Fin grid0.N, condMid (grid0.coords t) ↔ t.val = 20)
/-- the second pass is the points from 20 on. -/
theorem hcond3 : ∀ t : Fin cfg0.N, k0_cond3 (grid0.coords t) = 1#1 ↔ 20 ≤ t.val :=
  (by decide +kernel : ∀ t : Fin grid0.N, k0_cond3 (grid0.coords t) = 1#1 ↔ 20 ≤ t.val)

/-- Point `t` of the first pass stores its exponentials from row `5000 t` on, -/
theorem off1_eq : ∀ t : Fin cfg0.N, t.val < 20 → k0_off1 (grid0.coords t) = ![5000 * t.val, 0] :=
  (by decide +kernel : ∀ t : Fin grid0.N, t.val < 20 → k0_off1 (grid0.coords t) = ![5000 * t.val, 0])
/-- and its maximum and sum in row `t`. -/
theorem off2_eq : ∀ t : Fin cfg0.N, t.val < 20 → k0_off2 (grid0.coords t) = ![t.val, 0] :=
  (by decide +kernel : ∀ t : Fin grid0.N, t.val < 20 → k0_off2 (grid0.coords t) = ![t.val, 0])
/-- Point `t` of the second pass reads the exponentials from row `5000 (t - 20)` on, -/
theorem off3_eq : ∀ t : Fin cfg0.N, 20 ≤ t.val → k0_off3 (grid0.coords t) = ![5000 * (t.val - 20), 0] :=
  (by decide +kernel : ∀ t : Fin grid0.N, 20 ≤ t.val → k0_off3 (grid0.coords t) = ![5000 * (t.val - 20), 0])
/-- and row `t - 20` of the factor table. -/
theorem off4_eq : ∀ t : Fin cfg0.N, 20 ≤ t.val → k0_off4 (grid0.coords t) = ![t.val - 20, 0] :=
  (by decide +kernel : ∀ t : Fin grid0.N, 20 ≤ t.val → k0_off4 (grid0.coords t) = ![t.val - 20, 0])

/-- The two input windows are live at every point. -/
theorem live0 : ∀ t : Fin cfg0.N, cfg0.idle 0 (grid0.coords t) = false := by decide +kernel
theorem live1 : ∀ t : Fin cfg0.N, cfg0.idle 1 (grid0.coords t) = false := by decide +kernel
/-- The output window is idle through the first pass, where nothing is stored into it and nothing written back, -/
theorem idle2 : ∀ t : Fin cfg0.N, t.val < 20 → cfg0.idle 2 (grid0.coords t) = true := by decide +kernel
theorem noflush2 : ∀ t : Fin cfg0.N, t.val < 20 → (cfg0.win 2).flush t = false := by decide +kernel
/-- and live through the second. -/
theorem live2 : ∀ t : Fin cfg0.N, 20 ≤ t.val → cfg0.idle 2 (grid0.coords t) = false := by decide +kernel

/-! ## Chunks -/

/-- Point `j` of the first pass, which works on chunk `j`. -/
def pt (j : Fin 20) : Fin cfg0.N := ⟨j.val, lt_of_lt_of_eq (Nat.lt_of_lt_of_le j.isLt (by norm_num)) N_0.symm⟩

@[simp] theorem pt_val (j : Fin 20) : (pt j).val = j.val := rfl

/-- The chunk a point works on: `t` in the first pass, `t - 20` in the second. -/
def chunk (t : Fin cfg0.N) : Fin 20 := ⟨t.val % 20, Nat.mod_lt _ (by norm_num)⟩

theorem hc1pt (j : Fin 20) : k0_cond1 (grid0.coords (pt j)) = 1#1 := (hcond1 (pt j)).mpr j.isLt

/-! ## The scratch buffers and their tiles -/

abbrev sc4 : Memref sig .tc .vmem S100000x128 .bf16 := Memref.whole cc0_scratch0
abbrev sc5 : Memref sig .tc .vmem S20x128 .f32 := Memref.whole cc0_scratch1
abbrev sc6 : Memref sig .tc .vmem S20x128 .f32 := Memref.whole cc0_scratch2
abbrev sc7 : Memref sig .tc .vmem S20x128 .f32 := Memref.whole cc0_scratch3

/-- Where chunk `j`'s exponentials go in the first scratch; -/
def offE (j : Fin 20) : Fin 2 → ℕ := k0_off1 (grid0.coords (pt j))
theorem inbE (j : Fin 20) (a : Fin 2) : offE j a + S5000x128.size a ≤ S100000x128.size a := k0_off1_inb (grid0.coords (pt j)) (hc1pt j) a
theorem offE_eq (j : Fin 20) : offE j = ![5000 * j.val, 0] := off1_eq (pt j) j.isLt
/-- where its maximum and its sum go in the two small tables. -/
def offR (j : Fin 20) : Fin 2 → ℕ := k0_off2 (grid0.coords (pt j))
theorem inbR (j : Fin 20) (a : Fin 2) : offR j a + S1x128.size a ≤ S20x128.size a := k0_off2_inb (grid0.coords (pt j)) (hc1pt j) a
theorem offR_eq (j : Fin 20) : offR j = ![j.val, 0] := off2_eq (pt j) j.isLt

/-- Chunk `j`'s exponentials, maximum and sum, from the two input blocks of point `j`. -/
def chE (c : Dev nD) (j : Fin 20) : (⟨2, S5000x128.size⟩ : Shape).Idx → Elt F .bf16 := k0_pay4 (iblk m c 0 (pt j)) (iblk m c 1 (pt j))
def chM (c : Dev nD) (j : Fin 20) : (⟨2, S1x128.size⟩ : Shape).Idx → Elt F .f32 := k0_pay5 (iblk m c 0 (pt j)) (iblk m c 1 (pt j))
def chS (c : Dev nD) (j : Fin 20) : (⟨2, S1x128.size⟩ : Shape).Idx → Elt F .f32 := k0_pay6 (iblk m c 0 (pt j)) (iblk m c 1 (pt j))

/-- The stores of the first `n` chunks, newest first, into each of the three scratch buffers. -/
def tilesE (c : Dev nD) (n : ℕ) (hn : n ≤ 20) : List (View.Piece (Elt F) S100000x128 .bf16) :=
  View.tilePieces (s := S100000x128) S5000x128.size offE inbE (chE m c) n hn
def tilesM (c : Dev nD) (n : ℕ) (hn : n ≤ 20) : List (View.Piece (Elt F) S20x128 .f32) :=
  View.tilePieces (s := S20x128) S1x128.size offR inbR (chM m c) n hn
def tilesS (c : Dev nD) (n : ℕ) (hn : n ≤ 20) : List (View.Piece (Elt F) S20x128 .f32) :=
  View.tilePieces (s := S20x128) S1x128.size offR inbR (chS m c) n hn

/-- The two small tables once complete: row `j` is chunk `j`'s maximum, respectively sum. -/
def tabMax (c : Dev nD) : Vec F S20x128 .f32 := fun y => chM m c ⟨(y 0).val, (y 0).isLt⟩ (ix2 (0 : Fin 1) ⟨(y 1).val, (y 1).isLt⟩)
def tabSum (c : Dev nD) : Vec F S20x128 .f32 := fun y => chS m c ⟨(y 0).val, (y 0).isLt⟩ (ix2 (0 : Fin 1) ⟨(y 1).val, (y 1).isLt⟩)
/-- The factor table. -/
def tabFac (c : Dev nD) : Vec F S20x128 .f32 := k0_pay7 (tabMax m c) (tabSum m c)

/-- Row `j` of a 20 × 128 table, as a 1 × 128 block. -/
def rowOf (X : Vec F S20x128 .f32) (j : Fin 20) : Vec F S1x128 .f32 := fun y => X (ix2 j ⟨(y 1).val, (y 1).isLt⟩)

/-- The output block of a point of the second pass. -/
def outAt (c : Dev nD) (t : Fin cfg0.N) : Vec F S5000x128 .f32 := k0_pay8 (chE m c (chunk t)) (rowOf (tabFac m c) (chunk t))

end Cert.Kernel.Body

end
-- ==== Proof.KInv.lean ====
import proofs.«140306_g81492709474519_cont_9to1c4b_556_12_alg».proof.Proof.KData
import Idealize.ShloMosaic.Lib.Pipeline.Value
import Idealize.ShloMosaic.Lib.WritesUnit

set_option maxRecDepth 16384

noncomputable section

/-!
  The invariant the scratch buffers satisfy between points, and the pipeline's proof data over it.

  * Reading back: once all twenty tiles are in place, the two small tables read as `tabMax` and `tabSum` whatever
    they held before (every row is under exactly one tile), rows `[5000 (t - 20), …)` of the first scratch read as
    chunk `t - 20`'s exponentials, and the row a point of the second pass loads from the factor table is row `t - 20`.
  * `inv n`: before point `n`, the three tiled buffers hold the first `min n 20` tiles over some earlier contents, the
    fourth holds anything up to point 20 and the factor table afterwards.
  * `dats`: the proof data — inputs left in place, the output block of a point of the second pass `outAt`.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N40 (t : Fin cfg0.N) : t.val < 40 := lt_of_lt_of_eq t.isLt N_0

/-! ## Reading the completed tiles back -/

/-- With all twenty rows stored, the table of chunk maxima reads as `tabMax`, whatever it held before. -/
theorem read_tabMax (c : Dev nD) (f : Buf (Elt F) (sc5.view.loc (c : Thread nD τ))) :
    sc5.view.read (Elt F) (sc5.view.writes (Elt F) f (tilesM m c 20 le_rfl)) = tabMax m c := by
  funext y
  unfold tilesM tabMax
  refine View.read_tilePieces sc5.view f S1x128.size offR inbR (chM m c) 20 le_rfl y ⟨(y 0).val, (y 0).isLt⟩ (y 0).isLt
    (ix2 (0 : Fin 1) ⟨(y 1).val, (y 1).isLt⟩) ?_ (0 : Fin 2) ?_
  · intro a
    rw [offR_eq]
    match a with
    | ⟨0, _⟩ => show (y 0).val = (y 0).val + 0; rfl
    | ⟨1, _⟩ => show (y 1).val = 0 + (y 1).val; omega
  · intro i' hi'
    rw [offR_eq]
    show (y 0).val < i'.val ∨ i'.val + 1 ≤ (y 0).val
    have : i'.val ≠ (y 0).val := fun e => hi' (Fin.ext e)
    omega

/-- Likewise the table of chunk sums reads as `tabSum`. -/
theorem read_tabSum (c : Dev nD) (f : Buf (Elt F) (sc6.view.loc (c : Thread nD τ))) :
    sc6.view.read (Elt F) (sc6.view.writes (Elt F) f (tilesS m c 20 le_rfl)) = tabSum m c := by
  funext y
  unfold tilesS tabSum
  refine View.read_tilePieces sc6.view f S1x128.size offR inbR (chS m c) 20 le_rfl y ⟨(y 0).val, (y 0).isLt⟩ (y 0).isLt
    (ix2 (0 : Fin 1) ⟨(y 1).val, (y 1).isLt⟩) ?_ (0 : Fin 2) ?_
  · intro a
    rw [offR_eq]
    match a with
    | ⟨0, _⟩ => show (y 0).val = (y 0).val + 0; rfl
    | ⟨1, _⟩ => show (y 1).val = 0 + (y 1).val; omega
  · intro i' hi'
    rw [offR_eq]
    show (y 0).val < i'.val ∨ i'.val + 1 ≤ (y 0).val
    have : i'.val ≠ (y 0).val := fun e => hi' (Fin.ext e)
    omega

/-- With all twenty chunks stored, rows `[5000 j, 5000 j + 5000)` of the first scratch read as chunk `j`'s exponentials. -/
theorem read_chunk_at (c : Dev nD) (f : Buf (Elt F) (sc4.view.loc (c : Thread nD τ))) (j : Fin 20)
    (off : Fin 2 → ℕ) (hoff : off = ![5000 * j.val, 0]) (inb : ∀ a, off a + S5000x128.size a ≤ S100000x128.size a) :
    View.readAt (Elt F) sc4.view (Rect.unit (s := S100000x128) off S5000x128.size inb).toLoadRect
        (sc4.view.writes (Elt F) f (tilesE m c 20 le_rfl)) = chE m c j := by
  subst hoff
  funext x
  rw [View.readAt_apply]
  unfold tilesE
  refine View.read_tilePieces sc4.view f S5000x128.size offE inbE (chE m c) 20 le_rfl _ j j.isLt x ?_ (0 : Fin 2) ?_
  · intro a
    rw [offE_eq]
    show ![5000 * j.val, 0] a + 1 * (x a).val = ![5000 * j.val, 0] a + (x a).val
    omega
  · intro i' hi'
    rw [offE_eq]
    show 5000 * j.val + 1 * (x 0).val < 5000 * i'.val ∨ 5000 * i'.val + 5000 ≤ 5000 * j.val + 1 * (x 0).val
    have hx : (x 0).val < 5000 := (x 0).isLt
    have : i'.val ≠ j.val := fun e => hi' (Fin.ext e)
    omega

/-- The chunk of a point of the second pass is `t - 20`. -/
theorem chunk_val_of_ge (t : Fin cfg0.N) (ht : 20 ≤ t.val) : (chunk t).val = t.val - 20 := by
  have hN := N40 t
  show t.val % 20 = t.val - 20
  omega

/-- The rows a point `t ≥ 20` loads from the first scratch are chunk `t - 20`'s exponentials. -/
theorem read_chunk (c : Dev nD) (f : Buf (Elt F) (sc4.view.loc (c : Thread nD τ))) (t : Fin cfg0.N) (ht : 20 ≤ t.val)
    (inb : ∀ a, k0_off3 (grid0.coords t) a + S5000x128.size a ≤ S100000x128.size a) :
    View.readAt (Elt F) sc4.view (Rect.unit (s := S100000x128) (k0_off3 (grid0.coords t)) S5000x128.size inb).toLoadRect
        (sc4.view.writes (Elt F) f (tilesE m c 20 le_rfl)) = chE m c (chunk t) :=
  read_chunk_at m c f (chunk t) _ ((off3_eq t ht).trans (by rw [chunk_val_of_ge t ht])) inb

/-- Row `j` of a table, loaded through the one-row rectangle at row `j`. -/
theorem ld_row_at (X : Vec F S20x128 .f32) (j : Fin 20) (off : Fin 2 → ℕ) (hoff : off = ![j.val, 0])
    (inb : ∀ a, off a + S1x128.size a ≤ S20x128.size a) :
    View.ld X (Rect.unit (s := S20x128) off S1x128.size inb) = rowOf X j := by
  subst hoff
  funext x
  unfold rowOf
  refine congrArg X (funext fun a => Fin.ext ?_)
  match a with
  | ⟨0, _⟩ =>
    have hx : (x 0).val < 1 := (x 0).isLt
    show j.val + 1 * (x 0).val = j.val
    omega
  | ⟨1, _⟩ =>
    show 0 + 1 * (x 1).val = (x 1).val
    omega

/-- The row of a table that a point `t ≥ 20` loads is row `t - 20`. -/
theorem ld_row (X : Vec F S20x128 .f32) (t : Fin cfg0.N) (ht : 20 ≤ t.val)
    (inb : ∀ a, k0_off4 (grid0.coords t) a + S1x128.size a ≤ S20x128.size a) :
    View.ld X (Rect.unit (s := S20x128) (k0_off4 (grid0.coords t)) S1x128.size inb) = rowOf X (chunk t) :=
  ld_row_at X (chunk t) _ ((off4_eq t ht).trans (by rw [chunk_val_of_ge t ht])) inb

/-! ## The invariant -/

/-- Before point `n`: up to point 20 the three tiled buffers hold the first `n` tiles over some earlier contents and the
    fourth scratch anything; afterwards all twenty tiles are in place and the fourth scratch holds the factor table.
    The generator register is carried along untouched. -/
def inv (c : Dev nD) (n : ℕ) : sProp 𝕄 :=
  if h : n ≤ 20 then
    iprop((∃ f4, sc4.view.loc (c : Thread nD τ) ↦[sc4.view.set]{fullShare} sc4.view.writes (Elt F) f4 (tilesE m c n h))
      ∗ (∃ f5, sc5.view.loc (c : Thread nD τ) ↦[sc5.view.set]{fullShare} sc5.view.writes (Elt F) f5 (tilesM m c n h))
      ∗ (∃ f6, sc6.view.loc (c : Thread nD τ) ↦[sc6.view.set]{fullShare} sc6.view.writes (Elt F) f6 (tilesS m c n h))
      ∗ (∃ f7, sc7.view.loc (c : Thread nD τ) ↦[sc7.view.set]{fullShare} f7)
      ∗ (∃ r, prngReg c r))
  else
    iprop((∃ f4, sc4.view.loc (c : Thread nD τ) ↦[sc4.view.set]{fullShare} sc4.view.writes (Elt F) f4 (tilesE m c 20 le_rfl))
      ∗ (∃ f5, sc5.view.loc (c : Thread nD τ) ↦[sc5.view.set]{fullShare} sc5.view.writes (Elt F) f5 (tilesM m c 20 le_rfl))
      ∗ (∃ f6, sc6.view.loc (c : Thread nD τ) ↦[sc6.view.set]{fullShare} sc6.view.writes (Elt F) f6 (tilesS m c 20 le_rfl))
      ∗ owns (c : Thread nD τ) sc7 fullShare (tabFac m c)
      ∗ (∃ r, prngReg c r))

theorem inv_le (c : Dev nD) {n : ℕ} (h : n ≤ 20) : inv m c n =
    iprop((∃ f4, sc4.view.loc (c : Thread nD τ) ↦[sc4.view.set]{fullShare} sc4.view.writes (Elt F) f4 (tilesE m c n h))
      ∗ (∃ f5, sc5.view.loc (c : Thread nD τ) ↦[sc5.view.set]{fullShare} sc5.view.writes (Elt F) f5 (tilesM m c n h))
      ∗ (∃ f6, sc6.view.loc (c : Thread nD τ) ↦[sc6.view.set]{fullShare} sc6.view.writes (Elt F) f6 (tilesS m c n h))
      ∗ (∃ f7, sc7.view.loc (c : Thread nD τ) ↦[sc7.view.set]{fullShare} f7)
      ∗ (∃ r, prngReg c r)) := dif_pos h

theorem inv_gt (c : Dev nD) {n : ℕ} (h : ¬n ≤ 20) : inv m c n =
    iprop((∃ f4, sc4.view.loc (c : Thread nD τ) ↦[sc4.view.set]{fullShare} sc4.view.writes (Elt F) f4 (tilesE m c 20 le_rfl))
      ∗ (∃ f5, sc5.view.loc (c : Thread nD τ) ↦[sc5.view.set]{fullShare} sc5.view.writes (Elt F) f5 (tilesM m c 20 le_rfl))
      ∗ (∃ f6, sc6.view.loc (c : Thread nD τ) ↦[sc6.view.set]{fullShare} sc6.view.writes (Elt F) f6 (tilesS m c 20 le_rfl))
      ∗ owns (c : Thread nD τ) sc7 fullShare (tabFac m c)
      ∗ (∃ r, prngReg c r)) := dif_neg h

/-- One more tile: the stores of the first `t + 1` chunks are point `t`'s store over those of the first `t`. -/
theorem writes_tilesE_succ (c : Dev nD) (f : Buf (Elt F) (sc4.view.loc (c : Thread nD τ))) (t : Fin cfg0.N) (h : t.val < 20)
    (inb : ∀ a, k0_off1 (grid0.coords t) a + S5000x128.size a ≤ S100000x128.size a) :
    sc4.view.writes (Elt F) f (tilesE m c (t.val + 1) (Nat.succ_le_of_lt h))
      = sc4.view.writes (Elt F) (sc4.view.writes (Elt F) f (tilesE m c t.val (Nat.le_of_lt h)))
          [⟨Rect.unit (s := S100000x128) (k0_off1 (grid0.coords t)) S5000x128.size inb, k0_pay4 (iblk m c 0 t) (iblk m c 1 t)⟩] := rfl
theorem writes_tilesM_succ (c : Dev nD) (f : Buf (Elt F) (sc5.view.loc (c : Thread nD τ))) (t : Fin cfg0.N) (h : t.val < 20)
    (inb : ∀ a, k0_off2 (grid0.coords t) a + S1x128.size a ≤ S20x128.size a) :
    sc5.view.writes (Elt F) f (tilesM m c (t.val + 1) (Nat.succ_le_of_lt h))
      = sc5.view.writes (Elt F) (sc5.view.writes (Elt F) f (tilesM m c t.val (Nat.le_of_lt h)))
          [⟨Rect.unit (s := S20x128) (k0_off2 (grid0.coords t)) S1x128.size inb, k0_pay5 (iblk m c 0 t) (iblk m c 1 t)⟩] := rfl
theorem writes_tilesS_succ (c : Dev nD) (f : Buf (Elt F) (sc6.view.loc (c : Thread nD τ))) (t : Fin cfg0.N) (h : t.val < 20)
    (inb : ∀ a, k0_off2 (grid0.coords t) a + S1x128.size a ≤ S20x128.size a) :
    sc6.view.writes (Elt F) f (tilesS m c (t.val + 1) (Nat.succ_le_of_lt h))
      = sc6.view.writes (Elt F) (sc6.view.writes (Elt F) f (tilesS m c t.val (Nat.le_of_lt h)))
          [⟨Rect.unit (s := S20x128) (k0_off2 (grid0.coords t)) S1x128.size inb, k0_pay6 (iblk m c 0 t) (iblk m c 1 t)⟩] := rfl

/-! ## The pipeline's proof data -/

/-- The arrays as the region finds them; each input's buffer left at its block; the output's buffer, at a point of the
    second pass, at that point's block of the result; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem Phi_castSucc (c : Dev nD) (t : Fin cfg0.N) : (dats m 0 c).Φ t.castSucc = inv m c t.val := by
  dsimp only [dats]; simp only [Fin.coe_castSucc]
theorem Phi_succ (c : Dev nD) (t : Fin cfg0.N) : (dats m 0 c).Φ t.succ = inv m c (t.val + 1) := by
  dsimp only [dats]; simp only [Fin.val_succ]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Body

end
-- ==== Proof.KFrame.lean ====
import proofs.«140306_g81492709474519_cont_9to1c4b_556_12_alg».proof.Proof.KInv
import Idealize.ShloMosaic.Lib.Pipeline.Value
import Idealize.ShloMosaic.Lib.WritesUnit

set_option maxRecDepth 16384

noncomputable section

/-!
  The body obligation and the frame run.

  At a point of the first pass the three partial stores add one tile to each tiled scratch; the output's buffer is handed
  back as found (the window is idle there and not written back).  At point 20 the completed small tables read as
  `tabMax` and `tabSum`, so the table stored into the fourth scratch is `tabFac`; at every point from 20 on the chunk
  loaded from the first scratch and the row loaded from the fourth are those of chunk `t - 20`, so the block stored into
  the output's buffer is `outAt`.  Before the first point the invariant is what the launch hands over (no tile yet,
  every scratch at anything); after the last point the scratch contents are forgotten again.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- A whole scratch buffer's points-to, through its view and directly. -/
theorem pts4 (c : Dev nD) (f : Buf (Elt F) ((c : Thread nD τ).loc cc0_scratch0)) :
    (sc4.view.loc (c : Thread nD τ) ↦[sc4.view.set]{fullShare} f : sProp 𝕄) = ((c : Thread nD τ).loc cc0_scratch0) ↦{fullShare} f := by
  simp only [Memref.view_whole, View.set_whole]
theorem pts5 (c : Dev nD) (f : Buf (Elt F) ((c : Thread nD τ).loc cc0_scratch1)) :
    (sc5.view.loc (c : Thread nD τ) ↦[sc5.view.set]{fullShare} f : sProp 𝕄) = ((c : Thread nD τ).loc cc0_scratch1) ↦{fullShare} f := by
  simp only [Memref.view_whole, View.set_whole]
theorem pts6 (c : Dev nD) (f : Buf (Elt F) ((c : Thread nD τ).loc cc0_scratch2)) :
    (sc6.view.loc (c : Thread nD τ) ↦[sc6.view.set]{fullShare} f : sProp 𝕄) = ((c : Thread nD τ).loc cc0_scratch2) ↦{fullShare} f := by
  simp only [Memref.view_whole, View.set_whole]
theorem pts7 (c : Dev nD) (f : Buf (Elt F) ((c : Thread nD τ).loc cc0_scratch3)) :
    (sc7.view.loc (c : Thread nD τ) ↦[sc7.view.set]{fullShare} f : sProp 𝕄) = ((c : Thread nD τ).loc cc0_scratch3) ↦{fullShare} f := by
  simp only [Memref.view_whole, View.set_whole]

/-- A whole-table load of the completed table of maxima reads `tabMax`; -/
theorem readAt_tabMax (c : Dev nD) (f : Buf (Elt F) (sc5.view.loc (c : Thread nD τ))) :
    View.readAt (Elt F) sc5.view rTab.toLoadRect (sc5.view.writes (Elt F) f (tilesM m c 20 le_rfl)) = tabMax m c := by
  rw [View.readAt_eq_ld, read_tabMax, View.ld_unit_zero (S := S20x128) off0]
/-- of the completed table of sums, `tabSum`. -/
theorem readAt_tabSum (c : Dev nD) (f : Buf (Elt F) (sc6.view.loc (c : Thread nD τ))) :
    View.readAt (Elt F) sc6.view rTab.toLoadRect (sc6.view.writes (Elt F) f (tilesS m c 20 le_rfl)) = tabSum m c := by
  rw [View.readAt_eq_ld, read_tabSum, View.ld_unit_zero (S := S20x128) off0]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from by
      unfold Dat.leavesExact; rw [live0 t], after0_0]
  rw [show (dats m 0 c).leavesExact 1 t = owns (c : Thread nD τ) (st0_1 t) fullShare ((dats m 0 c).after 1 t) from by
      unfold Dat.leavesExact; rw [live1 t], after0_1]
  have hN := N40 t
  by_cases h1 : t.val < 20
  · -- a point of the first pass
    have hc1 : k0_cond1 (grid0.coords t) = 1#1 := (hcond1 t).mpr h1
    have hc2 : ¬condMid (grid0.coords t) := fun h => by have := (hcondMid t).mp h; omega
    have hc3 : ¬k0_cond3 (grid0.coords t) = 1#1 := fun h => by have := (hcond3 t).mp h; omega
    rw [Dat.leavesExact_idle (dats m 0 c) 2 t (idle2 t h1) (noflush2 t h1)]
    rw [inv_le m c (Nat.le_of_lt h1), inv_le m c (Nat.succ_le_of_lt h1)]
    iintro ⟨⟨⟨%f4, H4⟩, ⟨%f5, H5⟩, ⟨%f6, H6⟩, H7, Hg⟩, Ho, ⟨%d0, H0⟩, ⟨%d1, H1⟩, H2⟩
    iapply (run_first c (grid0.coords t) _ _ _ _ _ _ sc4 (Memref.isWhole_whole _) sc5 (Memref.isWhole_whole _) sc6 (Memref.isWhole_whole _) sc7 (Memref.isWhole_whole _) hc1 hc2 hc3 (iblk m c 0 t) (iblk m c 1 t) _ _ _ Set.univ _)
    isplitl [H0]; · iexact H0
    isplitl [H1]; · iexact H1
    isplitl [H4]; · iexact H4
    isplitl [H5]; · iexact H5
    isplitl [H6]; · iexact H6
    iintro ⟨H0, H1, H4, H5, H6⟩
    isplitl [H4 H5 H6 H7 Hg]
    · isplitl [H4]
      · iexists f4; rw [writes_tilesE_succ m c f4 t h1 (k0_off1_inb (grid0.coords t) hc1)]; iexact H4
      isplitl [H5]
      · iexists f5; rw [writes_tilesM_succ m c f5 t h1 (k0_off2_inb (grid0.coords t) hc1)]; iexact H5
      isplitl [H6]
      · iexists f6; rw [writes_tilesS_succ m c f6 t h1 (k0_off2_inb (grid0.coords t) hc1)]; iexact H6
      isplitl [H7]; · iexact H7
      iexact Hg
    isplitl [Ho]; · iexact Ho
    isplitl [H0]; · iexact H0
    isplitl [H1]; · iexact H1
    iexact H2
  · rw [show (dats m 0 c).leavesExact 2 t = owns (c : Thread nD τ) (st0_2 t) fullShare ((dats m 0 c).after 2 t) from by
        unfold Dat.leavesExact; rw [live2 t (by omega)], after0_2]
    have hc1 : ¬k0_cond1 (grid0.coords t) = 1#1 := fun h => h1 ((hcond1 t).mp h)
    have hc3 : k0_cond3 (grid0.coords t) = 1#1 := (hcond3 t).mpr (by omega)
    by_cases h2 : t.val = 20
    · -- point 20
      obtain rfl : t = t20 := Fin.ext h2
      have hc2 : condMid i20 := (hcondMid t20).mpr rfl
      rw [inv_le m c (le_refl 20), inv_gt m c (by decide : ¬(20 + 1 ≤ 20))]
      iintro ⟨⟨⟨%f4, H4⟩, ⟨%f5, H5⟩, ⟨%f6, H6⟩, H7, Hg⟩, Ho, ⟨%d0, H0⟩, ⟨%d1, H1⟩, ⟨%d2, H2⟩⟩
      iapply (run_mid c _ _ _ _ _ _ sc4 (Memref.isWhole_whole _) sc5 (Memref.isWhole_whole _) sc6 (Memref.isWhole_whole _) sc7 (Memref.isWhole_whole _) hc1 hc2 hc3 _ _ _ Set.univ _)
      isplitl [H5]; · iexact H5
      isplitl [H6]; · iexact H6
      isplitl [H7]; · iexact H7
      isplitl [H2]; · iexists _; iexact H2
      isplitl [H4]; · iexact H4
      iintro ⟨H5, H6, H7, H2, H4⟩
      rw [readAt_tabMax m c f5, readAt_tabSum m c f6, read_chunk m c f4 t20 (le_refl 20), ld_row _ t20 (le_refl 20)]
      isplitl [H4 H5 H6 H7 Hg]
      · isplitl [H4]; · iexists f4; iexact H4
        isplitl [H5]; · iexists f5; iexact H5
        isplitl [H6]; · iexists f6; iexact H6
        isplitl [H7]; · iexact H7
        iexact Hg
      isplitl [Ho]; · iexact Ho
      isplitl [H0]; · iexact H0
      isplitl [H1]; · iexact H1
      unfold outAt tabFac
      iexact H2
    · -- a later point of the second pass
      have h3 : 20 < t.val := by omega
      have hc2 : ¬condMid (grid0.coords t) := fun h => h2 ((hcondMid t).mp h)
      rw [inv_gt m c (by omega : ¬t.val ≤ 20), inv_gt m c (by omega : ¬t.val + 1 ≤ 20)]
      iintro ⟨⟨⟨%f4, H4⟩, H5, H6, H7, Hg⟩, Ho, ⟨%d0, H0⟩, ⟨%d1, H1⟩, ⟨%d2, H2⟩⟩
      iapply (run_last c (grid0.coords t) _ _ _ _ _ _ sc4 (Memref.isWhole_whole _) sc5 (Memref.isWhole_whole _) sc6 (Memref.isWhole_whole _) sc7 (Memref.isWhole_whole _) hc1 hc2 hc3 (tabFac m c) _ Set.univ _)
      isplitl [H2]; · iexists _; iexact H2
      isplitl [H4]; · iexact H4
      isplitl [H7]; · iexact H7
      iintro ⟨H2, H4, H7⟩
      rw [read_chunk m c f4 t (by omega), ld_row _ t (by omega)]
      isplitl [H4 H5 H6 H7 Hg]
      · isplitl [H4]; · iexists f4; iexact H4
        isplitl [H5]; · iexact H5
        isplitl [H6]; · iexact H6
        isplitl [H7]; · iexact H7
        iexact Hg
      isplitl [Ho]; · iexact Ho
      isplitl [H0]; · iexact H0
      isplitl [H1]; · iexact H1
      unfold outAt
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no tile yet, every scratch at anything. -/
theorem hin (c : Dev nD) : Pipeline.ΦA spec0 c ⊢ (dats m 0 c).Φ 0 := by
  rw [show (dats m 0 c).Φ 0 = inv m c 0 from rfl, inv_le m c (Nat.zero_le 20)]
  unfold Pipeline.ΦA; rw [scopedRest0_eq]
  iintro ⟨⟨⟨%f4, H4⟩, ⟨%f5, H5⟩, ⟨%f6, H6⟩, ⟨%f7, H7⟩⟩, Hg⟩
  isplitl [H4]
  · iexists f4; rw [show sc4.view.writes (Elt F) f4 (tilesE m c 0 (Nat.zero_le 20)) = f4 from rfl, pts4]; iexact H4
  isplitl [H5]
  · iexists f5; rw [show sc5.view.writes (Elt F) f5 (tilesM m c 0 (Nat.zero_le 20)) = f5 from rfl, pts5]; iexact H5
  isplitl [H6]
  · iexists f6; rw [show sc6.view.writes (Elt F) f6 (tilesS m c 0 (Nat.zero_le 20)) = f6 from rfl, pts6]; iexact H6
  isplitl [H7]
  · iexists f7; rw [pts7]; iexact H7
  iexact Hg

/-- After the last point the invariant gives back what the launch handed over: the scratch contents are forgotten. -/
theorem hout (c : Dev nD) : (dats m 0 c).Φ (Fin.last cfg0.N) ⊢ Pipeline.ΦA spec0 c := by
  rw [show (dats m 0 c).Φ (Fin.last cfg0.N) = inv m c 40 from rfl, inv_gt m c (by decide : ¬(40 ≤ 20))]
  unfold Pipeline.ΦA; rw [scopedRest0_eq]
  unfold owns
  iintro ⟨⟨%f4, H4⟩, ⟨%f5, H5⟩, ⟨%f6, H6⟩, ⟨%f7, -, H7⟩, Hg⟩
  isplitr [Hg]
  swap; · iexact Hg
  isplitl [H4]; · iexists _; rw [← pts4]; iexact H4
  isplitl [H5]; · iexists _; rw [← pts5]; iexact H5
  isplitl [H6]; · iexists _; rw [← pts6]; iexact H6
  iexists f7; rw [← pts7]; iexact H7

/-! ## The run and the frame -/

set_option backward.isDefEq.respectTransparency.types false in
/-- From any memory with zero counters, every weakly fair execution of the program terminates, and every final state
    has every array of the pipeline at what the proof data say and every other unscoped buffer as the host operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIRuns.lean ====
import proofs.«140306_g81492709474519_cont_9to1c4b_556_12_alg».proof.Proof.Gen.KernelIdeal.Frame
import proofs.«140306_g81492709474519_cont_9to1c4b_556_12_alg».proof.Proof.Gen.KernelIdeal.Skeleton
import Idealize.ShloMosaic.Lib.Pipeline.Value
import Idealize.ShloMosaic.Lib.WritesUnit

set_option maxRecDepth 16384

noncomputable section

/-!
  The kernel body, run once for each of the three kinds of grid point.

  The grid has 40 points.  At a point `t < 20` the body reads chunk `t` of the two inputs, and stores the chunk's
  exponentials (taken against the chunk's own maximum) into rows `[5000 t, 5000 t + 5000)` of the first scratch, the
  chunk's maximum into row `t` of the second and the chunk's sum into row `t` of the third; it touches nothing else.
  At point 20 it reads the second and third scratch whole, stores the twenty per-chunk factors into the fourth, and
  then does what every later point does.  At a point `t ≥ 20` it reads rows `[5000 (t - 20), …)` of the first scratch
  and row `t - 20` of the fourth, and stores their product into the output's staging buffer, whole.

  Each theorem states one of these runs over arbitrary staging and scratch memrefs, with the contents left behind
  written out: a buffer stored into in part is the list of its writes over what it held, a buffer stored whole holds
  the stored value.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The middle conditional's test, "the grid coordinate is 20", as the body computes it. -/
abbrev condMid (i : grid0.Coords) : Prop :=
  (Scalar.cmpi .ne (Scalar.extui (Scalar.cmpi .eq (BitVec.ofNat 32 (i 0).val) 20#32)) 0#32) = 1#1

/-- The offsets of a rectangle that starts at the origin. -/
theorem off0 : (![0, 0] : Fin 2 → ℕ) = fun _ => 0 := funext fun a => by fin_cases a <;> rfl

/-- The rectangle that is a whole 5000 × 128 block. -/
abbrev rBlk : Rect S5000x128 := Rect.unit (s := S5000x128) ![0, 0] S5000x128.size inb_S5000x128_S5000x128_0_0
/-- The rectangle that is a whole 20 × 128 table. -/
abbrev rTab : Rect S20x128 := Rect.unit (s := S20x128) ![0, 0] S20x128.size inb_S20x128_S20x128_0_0

/-- One store through the whole-block rectangle covers every index of the block. -/
theorem cover_blk (w : Vec F S5000x128 .f32) (y : S5000x128.Idx) :
    ∃ pc ∈ ([⟨rBlk, w⟩] : List (View.Piece (Elt F) S5000x128 .f32)), y ∈ pc.1.set :=
  View.cover_of_tiled [⟨rBlk, w⟩] S5000x128.size (by rfl) y

/-- One store through the whole-table rectangle covers every index of the table. -/
theorem cover_tab (w : Vec F S20x128 .f32) (y : S20x128.Idx) :
    ∃ pc ∈ ([⟨rTab, w⟩] : List (View.Piece (Elt F) S20x128 .f32)), y ∈ pc.1.set :=
  View.cover_of_tiled [⟨rTab, w⟩] S20x128.size (by rfl) y

/-- A load of a whole block from a buffer that reads `x` is `x`. -/
theorem readAt_blk (arg : Memref sig .tc .vmem S5000x128 .f32) (h : arg.IsWhole) (x : Vec F S5000x128 .f32) :
    View.readAt (Elt F) arg.view rBlk.toLoadRect (h.unread x) = x := by
  rw [View.readAt_eq_ld, h.read_unread, View.ld_unit_zero (S := S5000x128) off0]

/-- A load of a whole table from a buffer that reads `x` is `x`. -/
theorem readAt_tab (arg : Memref sig .tc .vmem S20x128 .f32) (h : arg.IsWhole) (x : Vec F S20x128 .f32) :
    View.readAt (Elt F) arg.view rTab.toLoadRect (h.unread x) = x := by
  rw [View.readAt_eq_ld, h.read_unread, View.ld_unit_zero (S := S20x128) off0]

/-- A point of the first pass: the three partial stores, over what the three scratch buffers held. -/
theorem run_first (c : Dev nD) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S100000x128 .bf16) (harg4 : arg4.IsWhole)
    (arg5 : Memref sig .tc .vmem S20x128 .f32) (harg5 : arg5.IsWhole) (arg6 : Memref sig .tc .vmem S20x128 .f32) (harg6 : arg6.IsWhole)
    (arg7 : Memref sig .tc .vmem S20x128 .f32) (harg7 : arg7.IsWhole)
    (hc1 : k0_cond1 i = 1#1) (hc2 : ¬condMid i) (hc3 : ¬k0_cond3 i = 1#1)
    (x0 x1 : Vec F S5000x128 .f32)
    (f4 : Buf (Elt F) (arg4.view.loc (c : Thread nD τ))) (f5 : Buf (Elt F) (arg5.view.loc (c : Thread nD τ)))
    (f6 : Buf (Elt F) (arg6.view.loc (c : Thread nD τ)))
    (E : Set ℕ) (K : PUnit → sProp 𝕄) :
    iprop(owns (c : Thread nD τ) arg1 fullShare x0 ∗ owns (c : Thread nD τ) arg2 fullShare x1
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (iprop(owns (c : Thread nD τ) arg1 fullShare x0 ∗ owns (c : Thread nD τ) arg2 fullShare x1
            ∗ (arg4.view.loc (c : Thread nD τ) ↦[arg4.view.set]{fullShare}
                arg4.view.writes (Elt F) f4 [⟨Rect.unit (s := S100000x128) (k0_off1 i) S5000x128.size (k0_off1_inb i hc1), k0_pay4 x0 x1⟩])
            ∗ (arg5.view.loc (c : Thread nD τ) ↦[arg5.view.set]{fullShare}
                arg5.view.writes (Elt F) f5 [⟨Rect.unit (s := S20x128) (k0_off2 i) S1x128.size (k0_off2_inb i hc1), k0_pay5 x0 x1⟩])
            ∗ (arg6.view.loc (c : Thread nD τ) ↦[arg6.view.set]{fullShare}
                arg6.view.writes (Elt F) f6 [⟨Rect.unit (s := S20x128) (k0_off2 i) S1x128.size (k0_off2_inb i hc1), k0_pay6 x0 x1⟩])) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%g0, %hg0, H0⟩, ⟨%g1, %hg1, H1⟩, H4, H5, H6, Hk⟩
  obtain rfl := harg1.eq_unread hg0; obtain rfl := harg2.eq_unread hg1
  sl_exec (disch := first | exact hc1 | exact hc2 | exact hc3)
  sl_step
  rw [readAt_blk arg1 harg1 x0, readAt_blk arg2 harg2 x1]
  iapply Hk
  isplitl [H0]
  · iexists _; isplitr; · ipureintro; exact harg1.read_unread _
    iexact H0
  isplitl [H1]
  · iexists _; isplitr; · ipureintro; exact harg2.read_unread _
    iexact H1
  isplitl [H4]; · iexact H4
  isplitl [H5]; · iexact H5
  iexact H6

/-- A point of the second pass after the first of them: one chunk of the first scratch times one row of the fourth. -/
theorem run_last (c : Dev nD) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S100000x128 .bf16) (harg4 : arg4.IsWhole)
    (arg5 : Memref sig .tc .vmem S20x128 .f32) (harg5 : arg5.IsWhole) (arg6 : Memref sig .tc .vmem S20x128 .f32) (harg6 : arg6.IsWhole)
    (arg7 : Memref sig .tc .vmem S20x128 .f32) (harg7 : arg7.IsWhole)
    (hc1 : ¬k0_cond1 i = 1#1) (hc2 : ¬condMid i) (hc3 : k0_cond3 i = 1#1)
    (fb : Vec F S20x128 .f32)
    (f4 : Buf (Elt F) (arg4.view.loc (c : Thread nD τ)))
    (E : Set ℕ) (K : PUnit → sProp 𝕄) :
    iprop((∃ d, owns (c : Thread nD τ) arg3 fullShare d)
        ∗ (arg4.view.loc (c : Thread nD τ) ↦[arg4.view.set]{fullShare} f4)
        ∗ owns (c : Thread nD τ) arg7 fullShare fb
        ∗ (iprop(owns (c : Thread nD τ) arg3 fullShare
              (k0_pay8 (View.readAt (Elt F) arg4.view (Rect.unit (s := S100000x128) (k0_off3 i) S5000x128.size (k0_off3_inb i hc3)).toLoadRect f4)
                (View.ld fb (Rect.unit (s := S20x128) (k0_off4 i) S1x128.size (k0_off4_inb i hc3))))
            ∗ (arg4.view.loc (c : Thread nD τ) ↦[arg4.view.set]{fullShare} f4)
            ∗ owns (c : Thread nD τ) arg7 fullShare fb) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%d3, %g3, -, H3⟩, H4, ⟨%g7, %hg7, H7⟩, Hk⟩
  obtain rfl := harg7.eq_unread hg7
  sl_exec (disch := first | exact hc1 | exact hc2 | exact hc3)
  sl_step
  iapply Hk
  isplitl [H3]
  · iexists _; isplitr
    swap; · iexact H3
    ipureintro
    rw [View.read_writes_eq_canon _ _ _ (cover_blk _), View.canon_unit_zero off0, View.readAt_eq_ld (v := arg7.view), harg7.read_unread]
  isplitl [H4]; · iexact H4
  iexists _; isplitr; · ipureintro; exact harg7.read_unread _
  iexact H7

/-- Point 20, where the second pass begins. -/
abbrev t20 : Fin cfg0.N := ⟨20, by decide⟩
/-- Its grid coordinates. -/
abbrev i20 : grid0.Coords := grid0.coords t20
/-- At point 20 the second pass reads row 0 of the factor table, -/
instance : ClosedOff (k0_off4 i20) := ⟨![0, 0], by decide +kernel⟩
/-- and rows from 0 on of the first scratch. -/
instance : ClosedOff (k0_off3 i20) := ⟨![0, 0], by decide +kernel⟩

/-- Point 20: the factor table is computed from the two small tables as they stand and stored whole; the point's output
    is then chunk 0 of the first scratch times row 0 of that table. -/
theorem run_mid (c : Dev nD)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S100000x128 .bf16) (harg4 : arg4.IsWhole)
    (arg5 : Memref sig .tc .vmem S20x128 .f32) (harg5 : arg5.IsWhole) (arg6 : Memref sig .tc .vmem S20x128 .f32) (harg6 : arg6.IsWhole)
    (arg7 : Memref sig .tc .vmem S20x128 .f32) (harg7 : arg7.IsWhole)
    (hc1 : ¬k0_cond1 i20 = 1#1) (hc2 : condMid i20) (hc3 : k0_cond3 i20 = 1#1)
    (f4 : Buf (Elt F) (arg4.view.loc (c : Thread nD τ))) (f5 : Buf (Elt F) (arg5.view.loc (c : Thread nD τ)))
    (f6 : Buf (Elt F) (arg6.view.loc (c : Thread nD τ)))
    (E : Set ℕ) (K : PUnit → sProp 𝕄) :
    iprop((arg5.view.loc (c : Thread nD τ) ↦[arg5.view.set]{fullShare} f5)
        ∗ (arg6.view.loc (c : Thread nD τ) ↦[arg6.view.set]{fullShare} f6)
        ∗ (∃ f7, arg7.view.loc (c : Thread nD τ) ↦[arg7.view.set]{fullShare} f7)
        ∗ (∃ d, owns (c : Thread nD τ) arg3 fullShare d)
        ∗ (arg4.view.loc (c : Thread nD τ) ↦[arg4.view.set]{fullShare} f4)
        ∗ (iprop((arg5.view.loc (c : Thread nD τ) ↦[arg5.view.set]{fullShare} f5)
            ∗ (arg6.view.loc (c : Thread nD τ) ↦[arg6.view.set]{fullShare} f6)
            ∗ owns (c : Thread nD τ) arg7 fullShare
                (k0_pay7 (View.readAt (Elt F) arg5.view rTab.toLoadRect f5) (View.readAt (Elt F) arg6.view rTab.toLoadRect f6))
            ∗ owns (c : Thread nD τ) arg3 fullShare
              (k0_pay8 (View.readAt (Elt F) arg4.view (Rect.unit (s := S100000x128) (k0_off3 i20) S5000x128.size (k0_off3_inb i20 hc3)).toLoadRect f4)
                (View.ld (k0_pay7 (View.readAt (Elt F) arg5.view rTab.toLoadRect f5) (View.readAt (Elt F) arg6.view rTab.toLoadRect f6))
                  (Rect.unit (s := S20x128) (k0_off4 i20) S1x128.size (k0_off4_inb i20 hc3))))
            ∗ (arg4.view.loc (c : Thread nD τ) ↦[arg4.view.set]{fullShare} f4)) -∗ K ⟨⟩))
      ⊢ wp frame (wpE (defs₀ (F := F)) Variants.none c none) E (cc0_body i20 arg1 harg1 arg2 harg2 arg3 harg3 arg4 harg4 arg5 harg5 arg6 harg6 arg7 harg7) K := by
  simp only [cc0_body_eq_skeleton]; unfold cc0_body_skel
  unfold owns
  iintro ⟨H5, H6, ⟨%f7, H7⟩, ⟨%d3, %g3, -, H3⟩, H4, Hk⟩
  sl_exec (disch := first | exact hc1 | exact hc2 | exact hc3)
  sl_step
  iapply Hk
  isplitl [H5]; · iexact H5
  isplitl [H6]; · iexact H6
  isplitl [H7]
  · iexists _; isplitr
    swap; · iexact H7
    ipureintro
    sl_unfold_words
    rw [View.read_writes_eq_canon _ _ _ (cover_tab _), View.canon_unit_zero off0]
  isplitl [H3]
  · iexists _; isplitr
    swap; · iexact H3
    ipureintro
    sl_unfold_words
    rw [View.read_writes_eq_canon _ _ _ (cover_blk _), View.canon_unit_zero off0,
      View.readCov_eq_canon_ld _ _ _ (cover_tab _), View.canon_unit_zero off0]
  iexact H4

end Cert.KernelIdeal.Body

end
-- ==== Proof.KIData.lean ====
import proofs.«140306_g81492709474519_cont_9to1c4b_556_12_alg».proof.Proof.KIRuns
import Idealize.ShloMosaic.Lib.ValueIdx
import Idealize.ShloMosaic.Lib.Pipeline.Value
import Idealize.ShloMosaic.Lib.WritesUnit

set_option maxRecDepth 16384

noncomputable section

/-!
  What the scratch buffers hold from point to point, and the pipeline's proof data.

  After `n ≤ 20` points of the first pass the first scratch holds, over whatever it held at the start, the exponentials
  of chunks `0 … n - 1` in their row ranges, and the second and third hold those chunks' maxima and sums in rows
  `0 … n - 1`: three lists of equal-sized tiles that the row coordinate keeps apart.  From point 20 on the lists are
  complete (twenty tiles each), so every row of the two small tables is a known function of the inputs (`tabMax`,
  `tabSum`), and the fourth scratch holds the factor table computed from them (`tabFac`).  The output block written at
  a point `t ≥ 20` is chunk `t - 20`'s exponentials times row `t - 20` of the factor table (`outAt`).
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The forty points, decided -/

/-- The first pass is the points below 20; -/
theorem hcond1 : ∀ t : Fin cfg0.N, k0_cond1 (grid0.coords t) = 1#1 ↔ t.val < 20 :=
  (by decide +kernel : ∀ t : Fin grid0.N, k0_cond1 (grid0.coords t) = 1#1 ↔ t.val < 20)
/-- the factor table is computed at point 20; -/
theorem hcondMid : ∀ t : Fin cfg0.N, condMid (grid0.coords t) ↔ t.val = 20 :=
  (by decide +kernel : ∀ t : Fin grid0.N, condMid (grid0.coords t) ↔ t.val = 20)
/-- the second pass is the points from 20 on. -/
theorem hcond3 : ∀ t : Fin cfg0.N, k0_cond3 (grid0.coords t) = 1#1 ↔ 20 ≤ t.val :=
  (by decide +kernel : ∀ t : Fin grid0.N, k0_cond3 (grid0.coords t) = 1#1 ↔ 20 ≤ t.val)

/-- Point `t` of the first pass stores its exponentials from row `5000 t` on, -/
theorem off1_eq : ∀ t : Fin cfg0.N, t.val < 20 → k0_off1 (grid0.coords t) = ![5000 * t.val, 0] :=
  (by decide +kernel : ∀ t : Fin grid0.N, t.val < 20 → k0_off1 (grid0.coords t) = ![5000 * t.val, 0])
/-- and its maximum and sum in row `t`. -/
theorem off2_eq : ∀ t : Fin cfg0.N, t.val < 20 → k0_off2 (grid0.coords t) = ![t.val, 0] :=
  (by decide +kernel : ∀ t : Fin grid0.N, t.val < 20 → k0_off2 (grid0.coords t) = ![t.val, 0])
/-- Point `t` of the second pass reads the exponentials from row `5000 (t - 20)` on, -/
theorem off3_eq : ∀ t : Fin cfg0.N, 20 ≤ t.val → k0_off3 (grid0.coords t) = ![5000 * (t.val - 20), 0] :=
  (by decide +kernel : ∀ t : Fin grid0.N, 20 ≤ t.val → k0_off3 (grid0.coords t) = ![5000 * (t.val - 20), 0])
/-- and row `t - 20` of the factor table. -/
theorem off4_eq : ∀ t : Fin cfg0.N, 20 ≤ t.val → k0_off4 (grid0.coords t) = ![t.val - 20, 0] :=
  (by decide +kernel : ∀ t : Fin grid0.N, 20 ≤ t.val → k0_off4 (grid0.coords t) = ![t.val - 20, 0])

/-- The two input windows are live at every point. -/
theorem live0 : ∀ t : Fin cfg0.N, cfg0.idle 0 (grid0.coords t) = false := by decide +kernel
theorem live1 : ∀ t : Fin cfg0.N, cfg0.idle 1 (grid0.coords t) = false := by decide +kernel
/-- The output window is idle through the first pass, where nothing is stored into it and nothing written back, -/
theorem idle2 : ∀ t : Fin cfg0.N, t.val < 20 → cfg0.idle 2 (grid0.coords t) = true := by decide +kernel
theorem noflush2 : ∀ t : Fin cfg0.N, t.val < 20 → (cfg0.win 2).flush t = false := by decide +kernel
/-- and live through the second. -/
theorem live2 : ∀ t : Fin cfg0.N, 20 ≤ t.val → cfg0.idle 2 (grid0.coords t) = false := by decide +kernel

/-! ## Chunks -/

/-- Point `j` of the first pass, which works on chunk `j`. -/
def pt (j : Fin 20) : Fin cfg0.N := ⟨j.val, lt_of_lt_of_eq (Nat.lt_of_lt_of_le j.isLt (by norm_num)) N_0.symm⟩

@[simp] theorem pt_val (j : Fin 20) : (pt j).val = j.val := rfl

/-- The chunk a point works on: `t` in the first pass, `t - 20` in the second. -/
def chunk (t : Fin cfg0.N) : Fin 20 := ⟨t.val % 20, Nat.mod_lt _ (by norm_num)⟩

theorem hc1pt (j : Fin 20) : k0_cond1 (grid0.coords (pt j)) = 1#1 := (hcond1 (pt j)).mpr j.isLt

/-! ## The scratch buffers and their tiles -/

abbrev sc4 : Memref sig .tc .vmem S100000x128 .bf16 := Memref.whole cc0_scratch0
abbrev sc5 : Memref sig .tc .vmem S20x128 .f32 := Memref.whole cc0_scratch1
abbrev sc6 : Memref sig .tc .vmem S20x128 .f32 := Memref.whole cc0_scratch2
abbrev sc7 : Memref sig .tc .vmem S20x128 .f32 := Memref.whole cc0_scratch3

/-- Where chunk `j`'s exponentials go in the first scratch; -/
def offE (j : Fin 20) : Fin 2 → ℕ := k0_off1 (grid0.coords (pt j))
theorem inbE (j : Fin 20) (a : Fin 2) : offE j a + S5000x128.size a ≤ S100000x128.size a := k0_off1_inb (grid0.coords (pt j)) (hc1pt j) a
theorem offE_eq (j : Fin 20) : offE j = ![5000 * j.val, 0] := off1_eq (pt j) j.isLt
/-- where its maximum and its sum go in the two small tables. -/
def offR (j : Fin 20) : Fin 2 → ℕ := k0_off2 (grid0.coords (pt j))
theorem inbR (j : Fin 20) (a : Fin 2) : offR j a + S1x128.size a ≤ S20x128.size a := k0_off2_inb (grid0.coords (pt j)) (hc1pt j) a
theorem offR_eq (j : Fin 20) : offR j = ![j.val, 0] := off2_eq (pt j) j.isLt

/-- Chunk `j`'s exponentials, maximum and sum, from the two input blocks of point `j`. -/
def chE (c : Dev nD) (j : Fin 20) : (⟨2, S5000x128.size⟩ : Shape).Idx → Elt F .bf16 := k0_pay4 (iblk m c 0 (pt j)) (iblk m c 1 (pt j))
def chM (c : Dev nD) (j : Fin 20) : (⟨2, S1x128.size⟩ : Shape).Idx → Elt F .f32 := k0_pay5 (iblk m c 0 (pt j)) (iblk m c 1 (pt j))
def chS (c : Dev nD) (j : Fin 20) : (⟨2, S1x128.size⟩ : Shape).Idx → Elt F .f32 := k0_pay6 (iblk m c 0 (pt j)) (iblk m c 1 (pt j))

/-- The stores of the first `n` chunks, newest first, into each of the three scratch buffers. -/
def tilesE (c : Dev nD) (n : ℕ) (hn : n ≤ 20) : List (View.Piece (Elt F) S100000x128 .bf16) :=
  View.tilePieces (s := S100000x128) S5000x128.size offE inbE (chE m c) n hn
def tilesM (c : Dev nD) (n : ℕ) (hn : n ≤ 20) : List (View.Piece (Elt F) S20x128 .f32) :=
  View.tilePieces (s := S20x128) S1x128.size offR inbR (chM m c) n hn
def tilesS (c : Dev nD) (n : ℕ) (hn : n ≤ 20) : List (View.Piece (Elt F) S20x128 .f32) :=
  View.tilePieces (s := S20x128) S1x128.size offR inbR (chS m c) n hn

/-- The two small tables once complete: row `j` is chunk `j`'s maximum, respectively sum. -/
def tabMax (c : Dev nD) : Vec F S20x128 .f32 := fun y => chM m c ⟨(y 0).val, (y 0).isLt⟩ (ix2 (0 : Fin 1) ⟨(y 1).val, (y 1).isLt⟩)
def tabSum (c : Dev nD) : Vec F S20x128 .f32 := fun y => chS m c ⟨(y 0).val, (y 0).isLt⟩ (ix2 (0 : Fin 1) ⟨(y 1).val, (y 1).isLt⟩)
/-- The factor table. -/
def tabFac (c : Dev nD) : Vec F S20x128 .f32 := k0_pay7 (tabMax m c) (tabSum m c)

/-- Row `j` of a 20 × 128 table, as a 1 × 128 block. -/
def rowOf (X : Vec F S20x128 .f32) (j : Fin 20) : Vec F S1x128 .f32 := fun y => X (ix2 j ⟨(y 1).val, (y 1).isLt⟩)

/-- The output block of a point of the second pass. -/
def outAt (c : Dev nD) (t : Fin cfg0.N) : Vec F S5000x128 .f32 := k0_pay8 (chE m c (chunk t)) (rowOf (tabFac m c) (chunk t))

end Cert.KernelIdeal.Body

end
-- ==== Proof.KIInv.lean ====
import proofs.«140306_g81492709474519_cont_9to1c4b_556_12_alg».proof.Proof.KIData
import Idealize.ShloMosaic.Lib.Pipeline.Value
import Idealize.ShloMosaic.Lib.WritesUnit

set_option maxRecDepth 16384

noncomputable section

/-!
  The invariant the scratch buffers satisfy between points, and the pipeline's proof data over it.

  * Reading back: once all twenty tiles are in place, the two small tables read as `tabMax` and `tabSum` whatever
    they held before (every row is under exactly one tile), rows `[5000 (t - 20), …)` of the first scratch read as
    chunk `t - 20`'s exponentials, and the row a point of the second pass loads from the factor table is row `t - 20`.
  * `inv n`: before point `n`, the three tiled buffers hold the first `min n 20` tiles over some earlier contents, the
    fourth holds anything up to point 20 and the factor table afterwards.
  * `dats`: the proof data — inputs left in place, the output block of a point of the second pass `outAt`.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N40 (t : Fin cfg0.N) : t.val < 40 := lt_of_lt_of_eq t.isLt N_0

/-! ## Reading the completed tiles back -/

/-- With all twenty rows stored, the table of chunk maxima reads as `tabMax`, whatever it held before. -/
theorem read_tabMax (c : Dev nD) (f : Buf (Elt F) (sc5.view.loc (c : Thread nD τ))) :
    sc5.view.read (Elt F) (sc5.view.writes (Elt F) f (tilesM m c 20 le_rfl)) = tabMax m c := by
  funext y
  unfold tilesM tabMax
  refine View.read_tilePieces sc5.view f S1x128.size offR inbR (chM m c) 20 le_rfl y ⟨(y 0).val, (y 0).isLt⟩ (y 0).isLt
    (ix2 (0 : Fin 1) ⟨(y 1).val, (y 1).isLt⟩) ?_ (0 : Fin 2) ?_
  · intro a
    rw [offR_eq]
    match a with
    | ⟨0, _⟩ => show (y 0).val = (y 0).val + 0; rfl
    | ⟨1, _⟩ => show (y 1).val = 0 + (y 1).val; omega
  · intro i' hi'
    rw [offR_eq]
    show (y 0).val < i'.val ∨ i'.val + 1 ≤ (y 0).val
    have : i'.val ≠ (y 0).val := fun e => hi' (Fin.ext e)
    omega

/-- Likewise the table of chunk sums reads as `tabSum`. -/
theorem read_tabSum (c : Dev nD) (f : Buf (Elt F) (sc6.view.loc (c : Thread nD τ))) :
    sc6.view.read (Elt F) (sc6.view.writes (Elt F) f (tilesS m c 20 le_rfl)) = tabSum m c := by
  funext y
  unfold tilesS tabSum
  refine View.read_tilePieces sc6.view f S1x128.size offR inbR (chS m c) 20 le_rfl y ⟨(y 0).val, (y 0).isLt⟩ (y 0).isLt
    (ix2 (0 : Fin 1) ⟨(y 1).val, (y 1).isLt⟩) ?_ (0 : Fin 2) ?_
  · intro a
    rw [offR_eq]
    match a with
    | ⟨0, _⟩ => show (y 0).val = (y 0).val + 0; rfl
    | ⟨1, _⟩ => show (y 1).val = 0 + (y 1).val; omega
  · intro i' hi'
    rw [offR_eq]
    show (y 0).val < i'.val ∨ i'.val + 1 ≤ (y 0).val
    have : i'.val ≠ (y 0).val := fun e => hi' (Fin.ext e)
    omega

/-- With all twenty chunks stored, rows `[5000 j, 5000 j + 5000)` of the first scratch read as chunk `j`'s exponentials. -/
theorem read_chunk_at (c : Dev nD) (f : Buf (Elt F) (sc4.view.loc (c : Thread nD τ))) (j : Fin 20)
    (off : Fin 2 → ℕ) (hoff : off = ![5000 * j.val, 0]) (inb : ∀ a, off a + S5000x128.size a ≤ S100000x128.size a) :
    View.readAt (Elt F) sc4.view (Rect.unit (s := S100000x128) off S5000x128.size inb).toLoadRect
        (sc4.view.writes (Elt F) f (tilesE m c 20 le_rfl)) = chE m c j := by
  subst hoff
  funext x
  rw [View.readAt_apply]
  unfold tilesE
  refine View.read_tilePieces sc4.view f S5000x128.size offE inbE (chE m c) 20 le_rfl _ j j.isLt x ?_ (0 : Fin 2) ?_
  · intro a
    rw [offE_eq]
    show ![5000 * j.val, 0] a + 1 * (x a).val = ![5000 * j.val, 0] a + (x a).val
    omega
  · intro i' hi'
    rw [offE_eq]
    show 5000 * j.val + 1 * (x 0).val < 5000 * i'.val ∨ 5000 * i'.val + 5000 ≤ 5000 * j.val + 1 * (x 0).val
    have hx : (x 0).val < 5000 := (x 0).isLt
    have : i'.val ≠ j.val := fun e => hi' (Fin.ext e)
    omega

/-- The chunk of a point of the second pass is `t - 20`. -/
theorem chunk_val_of_ge (t : Fin cfg0.N) (ht : 20 ≤ t.val) : (chunk t).val = t.val - 20 := by
  have hN := N40 t
  show t.val % 20 = t.val - 20
  omega

/-- The rows a point `t ≥ 20` loads from the first scratch are chunk `t - 20`'s exponentials. -/
theorem read_chunk (c : Dev nD) (f : Buf (Elt F) (sc4.view.loc (c : Thread nD τ))) (t : Fin cfg0.N) (ht : 20 ≤ t.val)
    (inb : ∀ a, k0_off3 (grid0.coords t) a + S5000x128.size a ≤ S100000x128.size a) :
    View.readAt (Elt F) sc4.view (Rect.unit (s := S100000x128) (k0_off3 (grid0.coords t)) S5000x128.size inb).toLoadRect
        (sc4.view.writes (Elt F) f (tilesE m c 20 le_rfl)) = chE m c (chunk t) :=
  read_chunk_at m c f (chunk t) _ ((off3_eq t ht).trans (by rw [chunk_val_of_ge t ht])) inb

/-- Row `j` of a table, loaded through the one-row rectangle at row `j`. -/
theorem ld_row_at (X : Vec F S20x128 .f32) (j : Fin 20) (off : Fin 2 → ℕ) (hoff : off = ![j.val, 0])
    (inb : ∀ a, off a + S1x128.size a ≤ S20x128.size a) :
    View.ld X (Rect.unit (s := S20x128) off S1x128.size inb) = rowOf X j := by
  subst hoff
  funext x
  unfold rowOf
  refine congrArg X (funext fun a => Fin.ext ?_)
  match a with
  | ⟨0, _⟩ =>
    have hx : (x 0).val < 1 := (x 0).isLt
    show j.val + 1 * (x 0).val = j.val
    omega
  | ⟨1, _⟩ =>
    show 0 + 1 * (x 1).val = (x 1).val
    omega

/-- The row of a table that a point `t ≥ 20` loads is row `t - 20`. -/
theorem ld_row (X : Vec F S20x128 .f32) (t : Fin cfg0.N) (ht : 20 ≤ t.val)
    (inb : ∀ a, k0_off4 (grid0.coords t) a + S1x128.size a ≤ S20x128.size a) :
    View.ld X (Rect.unit (s := S20x128) (k0_off4 (grid0.coords t)) S1x128.size inb) = rowOf X (chunk t) :=
  ld_row_at X (chunk t) _ ((off4_eq t ht).trans (by rw [chunk_val_of_ge t ht])) inb

/-! ## The invariant -/

/-- Before point `n`: up to point 20 the three tiled buffers hold the first `n` tiles over some earlier contents and the
    fourth scratch anything; afterwards all twenty tiles are in place and the fourth scratch holds the factor table.
    The generator register is carried along untouched. -/
def inv (c : Dev nD) (n : ℕ) : sProp 𝕄 :=
  if h : n ≤ 20 then
    iprop((∃ f4, sc4.view.loc (c : Thread nD τ) ↦[sc4.view.set]{fullShare} sc4.view.writes (Elt F) f4 (tilesE m c n h))
      ∗ (∃ f5, sc5.view.loc (c : Thread nD τ) ↦[sc5.view.set]{fullShare} sc5.view.writes (Elt F) f5 (tilesM m c n h))
      ∗ (∃ f6, sc6.view.loc (c : Thread nD τ) ↦[sc6.view.set]{fullShare} sc6.view.writes (Elt F) f6 (tilesS m c n h))
      ∗ (∃ f7, sc7.view.loc (c : Thread nD τ) ↦[sc7.view.set]{fullShare} f7)
      ∗ (∃ r, prngReg c r))
  else
    iprop((∃ f4, sc4.view.loc (c : Thread nD τ) ↦[sc4.view.set]{fullShare} sc4.view.writes (Elt F) f4 (tilesE m c 20 le_rfl))
      ∗ (∃ f5, sc5.view.loc (c : Thread nD τ) ↦[sc5.view.set]{fullShare} sc5.view.writes (Elt F) f5 (tilesM m c 20 le_rfl))
      ∗ (∃ f6, sc6.view.loc (c : Thread nD τ) ↦[sc6.view.set]{fullShare} sc6.view.writes (Elt F) f6 (tilesS m c 20 le_rfl))
      ∗ owns (c : Thread nD τ) sc7 fullShare (tabFac m c)
      ∗ (∃ r, prngReg c r))

theorem inv_le (c : Dev nD) {n : ℕ} (h : n ≤ 20) : inv m c n =
    iprop((∃ f4, sc4.view.loc (c : Thread nD τ) ↦[sc4.view.set]{fullShare} sc4.view.writes (Elt F) f4 (tilesE m c n h))
      ∗ (∃ f5, sc5.view.loc (c : Thread nD τ) ↦[sc5.view.set]{fullShare} sc5.view.writes (Elt F) f5 (tilesM m c n h))
      ∗ (∃ f6, sc6.view.loc (c : Thread nD τ) ↦[sc6.view.set]{fullShare} sc6.view.writes (Elt F) f6 (tilesS m c n h))
      ∗ (∃ f7, sc7.view.loc (c : Thread nD τ) ↦[sc7.view.set]{fullShare} f7)
      ∗ (∃ r, prngReg c r)) := dif_pos h

theorem inv_gt (c : Dev nD) {n : ℕ} (h : ¬n ≤ 20) : inv m c n =
    iprop((∃ f4, sc4.view.loc (c : Thread nD τ) ↦[sc4.view.set]{fullShare} sc4.view.writes (Elt F) f4 (tilesE m c 20 le_rfl))
      ∗ (∃ f5, sc5.view.loc (c : Thread nD τ) ↦[sc5.view.set]{fullShare} sc5.view.writes (Elt F) f5 (tilesM m c 20 le_rfl))
      ∗ (∃ f6, sc6.view.loc (c : Thread nD τ) ↦[sc6.view.set]{fullShare} sc6.view.writes (Elt F) f6 (tilesS m c 20 le_rfl))
      ∗ owns (c : Thread nD τ) sc7 fullShare (tabFac m c)
      ∗ (∃ r, prngReg c r)) := dif_neg h

/-- One more tile: the stores of the first `t + 1` chunks are point `t`'s store over those of the first `t`. -/
theorem writes_tilesE_succ (c : Dev nD) (f : Buf (Elt F) (sc4.view.loc (c : Thread nD τ))) (t : Fin cfg0.N) (h : t.val < 20)
    (inb : ∀ a, k0_off1 (grid0.coords t) a + S5000x128.size a ≤ S100000x128.size a) :
    sc4.view.writes (Elt F) f (tilesE m c (t.val + 1) (Nat.succ_le_of_lt h))
      = sc4.view.writes (Elt F) (sc4.view.writes (Elt F) f (tilesE m c t.val (Nat.le_of_lt h)))
          [⟨Rect.unit (s := S100000x128) (k0_off1 (grid0.coords t)) S5000x128.size inb, k0_pay4 (iblk m c 0 t) (iblk m c 1 t)⟩] := rfl
theorem writes_tilesM_succ (c : Dev nD) (f : Buf (Elt F) (sc5.view.loc (c : Thread nD τ))) (t : Fin cfg0.N) (h : t.val < 20)
    (inb : ∀ a, k0_off2 (grid0.coords t) a + S1x128.size a ≤ S20x128.size a) :
    sc5.view.writes (Elt F) f (tilesM m c (t.val + 1) (Nat.succ_le_of_lt h))
      = sc5.view.writes (Elt F) (sc5.view.writes (Elt F) f (tilesM m c t.val (Nat.le_of_lt h)))
          [⟨Rect.unit (s := S20x128) (k0_off2 (grid0.coords t)) S1x128.size inb, k0_pay5 (iblk m c 0 t) (iblk m c 1 t)⟩] := rfl
theorem writes_tilesS_succ (c : Dev nD) (f : Buf (Elt F) (sc6.view.loc (c : Thread nD τ))) (t : Fin cfg0.N) (h : t.val < 20)
    (inb : ∀ a, k0_off2 (grid0.coords t) a + S1x128.size a ≤ S20x128.size a) :
    sc6.view.writes (Elt F) f (tilesS m c (t.val + 1) (Nat.succ_le_of_lt h))
      = sc6.view.writes (Elt F) (sc6.view.writes (Elt F) f (tilesS m c t.val (Nat.le_of_lt h)))
          [⟨Rect.unit (s := S20x128) (k0_off2 (grid0.coords t)) S1x128.size inb, k0_pay6 (iblk m c 0 t) (iblk m c 1 t)⟩] := rfl

/-! ## The pipeline's proof data -/

/-- The arrays as the region finds them; each input's buffer left at its block; the output's buffer, at a point of the
    second pass, at that point's block of the result; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem Phi_castSucc (c : Dev nD) (t : Fin cfg0.N) : (dats m 0 c).Φ t.castSucc = inv m c t.val := by
  dsimp only [dats]; simp only [Fin.coe_castSucc]
theorem Phi_succ (c : Dev nD) (t : Fin cfg0.N) : (dats m 0 c).Φ t.succ = inv m c (t.val + 1) := by
  dsimp only [dats]; simp only [Fin.val_succ]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Body

end
-- ==== Proof.KIFrame.lean ====
import proofs.«140306_g81492709474519_cont_9to1c4b_556_12_alg».proof.Proof.KIInv
import Idealize.ShloMosaic.Lib.Pipeline.Value
import Idealize.ShloMosaic.Lib.WritesUnit

set_option maxRecDepth 16384

noncomputable section

/-!
  The body obligation and the frame run.

  At a point of the first pass the three partial stores add one tile to each tiled scratch; the output's buffer is handed
  back as found (the window is idle there and not written back).  At point 20 the completed small tables read as
  `tabMax` and `tabSum`, so the table stored into the fourth scratch is `tabFac`; at every point from 20 on the chunk
  loaded from the first scratch and the row loaded from the fourth are those of chunk `t - 20`, so the block stored into
  the output's buffer is `outAt`.  Before the first point the invariant is what the launch hands over (no tile yet,
  every scratch at anything); after the last point the scratch contents are forgotten again.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- A whole scratch buffer's points-to, through its view and directly. -/
theorem pts4 (c : Dev nD) (f : Buf (Elt F) ((c : Thread nD τ).loc cc0_scratch0)) :
    (sc4.view.loc (c : Thread nD τ) ↦[sc4.view.set]{fullShare} f : sProp 𝕄) = ((c : Thread nD τ).loc cc0_scratch0) ↦{fullShare} f := by
  simp only [Memref.view_whole, View.set_whole]
theorem pts5 (c : Dev nD) (f : Buf (Elt F) ((c : Thread nD τ).loc cc0_scratch1)) :
    (sc5.view.loc (c : Thread nD τ) ↦[sc5.view.set]{fullShare} f : sProp 𝕄) = ((c : Thread nD τ).loc cc0_scratch1) ↦{fullShare} f := by
  simp only [Memref.view_whole, View.set_whole]
theorem pts6 (c : Dev nD) (f : Buf (Elt F) ((c : Thread nD τ).loc cc0_scratch2)) :
    (sc6.view.loc (c : Thread nD τ) ↦[sc6.view.set]{fullShare} f : sProp 𝕄) = ((c : Thread nD τ).loc cc0_scratch2) ↦{fullShare} f := by
  simp only [Memref.view_whole, View.set_whole]
theorem pts7 (c : Dev nD) (f : Buf (Elt F) ((c : Thread nD τ).loc cc0_scratch3)) :
    (sc7.view.loc (c : Thread nD τ) ↦[sc7.view.set]{fullShare} f : sProp 𝕄) = ((c : Thread nD τ).loc cc0_scratch3) ↦{fullShare} f := by
  simp only [Memref.view_whole, View.set_whole]

/-- A whole-table load of the completed table of maxima reads `tabMax`; -/
theorem readAt_tabMax (c : Dev nD) (f : Buf (Elt F) (sc5.view.loc (c : Thread nD τ))) :
    View.readAt (Elt F) sc5.view rTab.toLoadRect (sc5.view.writes (Elt F) f (tilesM m c 20 le_rfl)) = tabMax m c := by
  rw [View.readAt_eq_ld, read_tabMax, View.ld_unit_zero (S := S20x128) off0]
/-- of the completed table of sums, `tabSum`. -/
theorem readAt_tabSum (c : Dev nD) (f : Buf (Elt F) (sc6.view.loc (c : Thread nD τ))) :
    View.readAt (Elt F) sc6.view rTab.toLoadRect (sc6.view.writes (Elt F) f (tilesS m c 20 le_rfl)) = tabSum m c := by
  rw [View.readAt_eq_ld, read_tabSum, View.ld_unit_zero (S := S20x128) off0]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from by
      unfold Dat.leavesExact; rw [live0 t], after0_0]
  rw [show (dats m 0 c).leavesExact 1 t = owns (c : Thread nD τ) (st0_1 t) fullShare ((dats m 0 c).after 1 t) from by
      unfold Dat.leavesExact; rw [live1 t], after0_1]
  have hN := N40 t
  by_cases h1 : t.val < 20
  · -- a point of the first pass
    have hc1 : k0_cond1 (grid0.coords t) = 1#1 := (hcond1 t).mpr h1
    have hc2 : ¬condMid (grid0.coords t) := fun h => by have := (hcondMid t).mp h; omega
    have hc3 : ¬k0_cond3 (grid0.coords t) = 1#1 := fun h => by have := (hcond3 t).mp h; omega
    rw [Dat.leavesExact_idle (dats m 0 c) 2 t (idle2 t h1) (noflush2 t h1)]
    rw [inv_le m c (Nat.le_of_lt h1), inv_le m c (Nat.succ_le_of_lt h1)]
    iintro ⟨⟨⟨%f4, H4⟩, ⟨%f5, H5⟩, ⟨%f6, H6⟩, H7, Hg⟩, Ho, ⟨%d0, H0⟩, ⟨%d1, H1⟩, H2⟩
    iapply (run_first c (grid0.coords t) _ _ _ _ _ _ sc4 (Memref.isWhole_whole _) sc5 (Memref.isWhole_whole _) sc6 (Memref.isWhole_whole _) sc7 (Memref.isWhole_whole _) hc1 hc2 hc3 (iblk m c 0 t) (iblk m c 1 t) _ _ _ Set.univ _)
    isplitl [H0]; · iexact H0
    isplitl [H1]; · iexact H1
    isplitl [H4]; · iexact H4
    isplitl [H5]; · iexact H5
    isplitl [H6]; · iexact H6
    iintro ⟨H0, H1, H4, H5, H6⟩
    isplitl [H4 H5 H6 H7 Hg]
    · isplitl [H4]
      · iexists f4; rw [writes_tilesE_succ m c f4 t h1 (k0_off1_inb (grid0.coords t) hc1)]; iexact H4
      isplitl [H5]
      · iexists f5; rw [writes_tilesM_succ m c f5 t h1 (k0_off2_inb (grid0.coords t) hc1)]; iexact H5
      isplitl [H6]
      · iexists f6; rw [writes_tilesS_succ m c f6 t h1 (k0_off2_inb (grid0.coords t) hc1)]; iexact H6
      isplitl [H7]; · iexact H7
      iexact Hg
    isplitl [Ho]; · iexact Ho
    isplitl [H0]; · iexact H0
    isplitl [H1]; · iexact H1
    iexact H2
  · rw [show (dats m 0 c).leavesExact 2 t = owns (c : Thread nD τ) (st0_2 t) fullShare ((dats m 0 c).after 2 t) from by
        unfold Dat.leavesExact; rw [live2 t (by omega)], after0_2]
    have hc1 : ¬k0_cond1 (grid0.coords t) = 1#1 := fun h => h1 ((hcond1 t).mp h)
    have hc3 : k0_cond3 (grid0.coords t) = 1#1 := (hcond3 t).mpr (by omega)
    by_cases h2 : t.val = 20
    · -- point 20
      obtain rfl : t = t20 := Fin.ext h2
      have hc2 : condMid i20 := (hcondMid t20).mpr rfl
      rw [inv_le m c (le_refl 20), inv_gt m c (by decide : ¬(20 + 1 ≤ 20))]
      iintro ⟨⟨⟨%f4, H4⟩, ⟨%f5, H5⟩, ⟨%f6, H6⟩, H7, Hg⟩, Ho, ⟨%d0, H0⟩, ⟨%d1, H1⟩, ⟨%d2, H2⟩⟩
      iapply (run_mid c _ _ _ _ _ _ sc4 (Memref.isWhole_whole _) sc5 (Memref.isWhole_whole _) sc6 (Memref.isWhole_whole _) sc7 (Memref.isWhole_whole _) hc1 hc2 hc3 _ _ _ Set.univ _)
      isplitl [H5]; · iexact H5
      isplitl [H6]; · iexact H6
      isplitl [H7]; · iexact H7
      isplitl [H2]; · iexists _; iexact H2
      isplitl [H4]; · iexact H4
      iintro ⟨H5, H6, H7, H2, H4⟩
      rw [readAt_tabMax m c f5, readAt_tabSum m c f6, read_chunk m c f4 t20 (le_refl 20), ld_row _ t20 (le_refl 20)]
      isplitl [H4 H5 H6 H7 Hg]
      · isplitl [H4]; · iexists f4; iexact H4
        isplitl [H5]; · iexists f5; iexact H5
        isplitl [H6]; · iexists f6; iexact H6
        isplitl [H7]; · iexact H7
        iexact Hg
      isplitl [Ho]; · iexact Ho
      isplitl [H0]; · iexact H0
      isplitl [H1]; · iexact H1
      unfold outAt tabFac
      iexact H2
    · -- a later point of the second pass
      have h3 : 20 < t.val := by omega
      have hc2 : ¬condMid (grid0.coords t) := fun h => h2 ((hcondMid t).mp h)
      rw [inv_gt m c (by omega : ¬t.val ≤ 20), inv_gt m c (by omega : ¬t.val + 1 ≤ 20)]
      iintro ⟨⟨⟨%f4, H4⟩, H5, H6, H7, Hg⟩, Ho, ⟨%d0, H0⟩, ⟨%d1, H1⟩, ⟨%d2, H2⟩⟩
      iapply (run_last c (grid0.coords t) _ _ _ _ _ _ sc4 (Memref.isWhole_whole _) sc5 (Memref.isWhole_whole _) sc6 (Memref.isWhole_whole _) sc7 (Memref.isWhole_whole _) hc1 hc2 hc3 (tabFac m c) _ Set.univ _)
      isplitl [H2]; · iexists _; iexact H2
      isplitl [H4]; · iexact H4
      isplitl [H7]; · iexact H7
      iintro ⟨H2, H4, H7⟩
      rw [read_chunk m c f4 t (by omega), ld_row _ t (by omega)]
      isplitl [H4 H5 H6 H7 Hg]
      · isplitl [H4]; · iexists f4; iexact H4
        isplitl [H5]; · iexact H5
        isplitl [H6]; · iexact H6
        isplitl [H7]; · iexact H7
        iexact Hg
      isplitl [Ho]; · iexact Ho
      isplitl [H0]; · iexact H0
      isplitl [H1]; · iexact H1
      unfold outAt
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no tile yet, every scratch at anything. -/
theorem hin (c : Dev nD) : Pipeline.ΦA spec0 c ⊢ (dats m 0 c).Φ 0 := by
  rw [show (dats m 0 c).Φ 0 = inv m c 0 from rfl, inv_le m c (Nat.zero_le 20)]
  unfold Pipeline.ΦA; rw [scopedRest0_eq]
  iintro ⟨⟨⟨%f4, H4⟩, ⟨%f5, H5⟩, ⟨%f6, H6⟩, ⟨%f7, H7⟩⟩, Hg⟩
  isplitl [H4]
  · iexists f4; rw [show sc4.view.writes (Elt F) f4 (tilesE m c 0 (Nat.zero_le 20)) = f4 from rfl, pts4]; iexact H4
  isplitl [H5]
  · iexists f5; rw [show sc5.view.writes (Elt F) f5 (tilesM m c 0 (Nat.zero_le 20)) = f5 from rfl, pts5]; iexact H5
  isplitl [H6]
  · iexists f6; rw [show sc6.view.writes (Elt F) f6 (tilesS m c 0 (Nat.zero_le 20)) = f6 from rfl, pts6]; iexact H6
  isplitl [H7]
  · iexists f7; rw [pts7]; iexact H7
  iexact Hg

/-- After the last point the invariant gives back what the launch handed over: the scratch contents are forgotten. -/
theorem hout (c : Dev nD) : (dats m 0 c).Φ (Fin.last cfg0.N) ⊢ Pipeline.ΦA spec0 c := by
  rw [show (dats m 0 c).Φ (Fin.last cfg0.N) = inv m c 40 from rfl, inv_gt m c (by decide : ¬(40 ≤ 20))]
  unfold Pipeline.ΦA; rw [scopedRest0_eq]
  unfold owns
  iintro ⟨⟨%f4, H4⟩, ⟨%f5, H5⟩, ⟨%f6, H6⟩, ⟨%f7, -, H7⟩, Hg⟩
  isplitr [Hg]
  swap; · iexact Hg
  isplitl [H4]; · iexists _; rw [← pts4]; iexact H4
  isplitl [H5]; · iexists _; rw [← pts5]; iexact H5
  isplitl [H6]; · iexists _; rw [← pts6]; iexact H6
  iexists f7; rw [← pts7]; iexact H7

/-! ## The run and the frame -/

set_option backward.isDefEq.respectTransparency.types false in
/-- From any memory with zero counters, every weakly fair execution of the program terminates, and every final state
    has every array of the pipeline at what the proof data say and every other unscoped buffer as the host operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Frames.lean ====
/-
  The three frames and the idealization's ledger.

  The kernel's frame, at the word level and at the extended reals, is the frame run of the two-pass body (the same
  text read at the two float instances).  The reference has no kernel: its frame is its run with the result dropped.
  The idealization rewrote no operation, so there is nothing to preserve.
-/
import proofs.«140306_g81492709474519_cont_9to1c4b_556_12_alg».proof.Defs
import proofs.«140306_g81492709474519_cont_9to1c4b_556_12_alg».proof.Proof.Gen.Kernel
import proofs.«140306_g81492709474519_cont_9to1c4b_556_12_alg».proof.Proof.Gen.KernelIdeal
import proofs.«140306_g81492709474519_cont_9to1c4b_556_12_alg».proof.Proof.Gen.ReferenceIdeal
import proofs.«140306_g81492709474519_cont_9to1c4b_556_12_alg».proof.Proof.Gen.Pre_finite_inputs
import proofs.«140306_g81492709474519_cont_9to1c4b_556_12_alg».proof.Proof.Gen.ReferenceIdeal.Run
import proofs.«140306_g81492709474519_cont_9to1c4b_556_12_alg».proof.Proof.KFrame
import proofs.«140306_g81492709474519_cont_9to1c4b_556_12_alg».proof.Proof.KIFrame

noncomputable section

namespace Cert.Proof.Frames

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.KIFinal.lean ====
import proofs.«140306_g81492709474519_cont_9to1c4b_556_12_alg».proof.Proof.KIInv
import Idealize.ShloMosaic.Lib.ValueIdx
import Idealize.ShloMosaic.Lib.Pipeline.Value
import Idealize.ShloMosaic.Lib.StableHlo.Run

set_option maxRecDepth 16384

noncomputable section

/-!
  From the output blocks to the output array, and from the array to the program's result.

  The output window is written back exactly at the points of the second pass: point 20 + j writes block j, rows
  [5000 j, 5000 j + 5000) of the 100000 × 128 array, and the twenty blocks tile the array.  So the array ends holding,
  at row r and column b, entry (r mod 5000, b) of the block the point 20 + r / 5000 leaves.  The program's one
  operation after the region transposes that array, so the result at (b, r) is the array at (r, b).
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The points that write back -/

/-- The point that writes block j back. -/
def ptOut (j : Fin 20) : Fin cfg0.N := ⟨20 + j.val, lt_of_lt_of_eq (Nat.add_lt_add_left j.isLt 20) N_0.symm⟩

@[simp] theorem ptOut_val (j : Fin 20) : (ptOut j).val = 20 + j.val := rfl

/-- The output window is written back at every point of the second pass, -/
theorem flush2 : ∀ t : Fin cfg0.N, 20 ≤ t.val → (cfg0.win 2).flush t = true := by decide +kernel
/-- and there its block index is (t - 20, 0). -/
theorem index2 : ∀ t : Fin cfg0.N, 20 ≤ t.val → win0_2.index t (0 : Fin 2) = t.val - 20 ∧ win0_2.index t (1 : Fin 2) = 0 :=
  (by decide +kernel : ∀ t : Fin grid0.N, 20 ≤ t.val → win0_2.index t (0 : Fin 2) = t.val - 20 ∧ win0_2.index t (1 : Fin 2) = 0)

/-- Only the points of the second pass write back. -/
theorem ge_of_flush2 (t : Fin cfg0.N) (hf : (cfg0.win 2).flush t = true) : 20 ≤ t.val := by
  by_contra h
  rw [noflush2 t (Nat.lt_of_not_le h)] at hf
  exact Bool.false_ne_true hf

/-! ## The array the blocks make up -/

/-- Row r, column b of the final array: entry (r mod 5000, b) of the block that point 20 + r / 5000 leaves. -/
def outArr (c : Dev nD) : S100000x128.Idx → Elt F .f32 := fun y =>
  outAt m c (ptOut ⟨(y 0).val / 5000, Nat.div_lt_of_lt_mul (y 0).isLt⟩)
    (ix2 (⟨(y 0).val % 5000, Nat.mod_lt _ (by norm_num)⟩ : Fin 5000) (⟨(y 1).val, (y 1).isLt⟩ : Fin 128))

/-- At row 5000 (t - 20) + p and column q that is entry (p, q) of point t's block. -/
theorem outArr_at (c : Dev nD) (t : Fin cfg0.N) (ht : 20 ≤ t.val) (j : S5000x128.Idx) (y : S100000x128.Idx)
    (h0 : (y 0).val = (t.val - 20) * 5000 + (j 0).val) (h1 : (y 1).val = (j 1).val) :
    outArr m c y = outAt m c t j := by
  have hj : (j 0).val < 5000 := (j 0).isLt
  have hN := N40 t
  have ea : ptOut ⟨(y 0).val / 5000, Nat.div_lt_of_lt_mul (y 0).isLt⟩ = t :=
    Fin.ext (by show 20 + (y 0).val / 5000 = t.val; omega)
  have eb : ix2 (⟨(y 0).val % 5000, Nat.mod_lt _ (by norm_num)⟩ : Fin 5000) (⟨(y 1).val, (y 1).isLt⟩ : Fin 128) = j := by
    funext a
    apply Fin.ext
    match a with
    | ⟨0, _⟩ => show (y 0).val % 5000 = (j 0).val; omega
    | ⟨1, _⟩ => exact h1
  show outAt m c (ptOut _) (ix2 _ _) = _
  rw [ea, eb]

/-- What a point of the second pass writes back is its block of that array. -/
theorem flushed2_eq (c : Dev nD) (t : Fin cfg0.N) (ht : 20 ≤ t.val) :
    (dats m 0 c).flushed 2 t = ((cfg0.win 2).blk t).view.read (Elt F) (outArr m c) := by
  show (cfg0.win 2).cut (grid0.coords t) ((dats m 0 c).after 2 t) = _
  rw [after0_2]
  obtain ⟨e0, e1⟩ := index2 t ht
  funext j
  show outAt m c t j = outArr m c (((cfg0.win 2).blk t).view.emb j)
  refine (outArr_at m c t ht j _ ?_ ?_).symm
  · show win0_2.index t (0 : Fin 2) * 5000 + 1 * (j 0).val = (t.val - 20) * 5000 + (j 0).val
    rw [e0]; omega
  · show win0_2.index t (1 : Fin 2) * 128 + 1 * (j 1).val = (j 1).val
    rw [e1]; omega

/-- An index is in point t's block iff each coordinate is in the block's range on its axis. -/
theorem mem_blk2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v2).slice (win0_2.rect t)).set ↔ _
  rw [View.set_slice_whole, Rect.mem_set_unit]
  exact Iff.rfl

/-- Every row lies in the block of the point 20 + r / 5000. -/
theorem cover2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : 20 ≤ (ptOut ⟨(i 0).val / 5000, Nat.div_lt_of_lt_mul (i 0).isLt⟩).val := Nat.le_add_right _ _
  refine ⟨ptOut ⟨(i 0).val / 5000, Nat.div_lt_of_lt_mul (i 0).isLt⟩, flush2 _ ht, ?_⟩
  obtain ⟨e0, e1⟩ := index2 _ ht
  rw [mem_blk2]
  intro a
  match a with
  | ⟨0, _⟩ =>
    show win0_2.index _ (0 : Fin 2) * 5000 ≤ (i 0).val ∧ (i 0).val < win0_2.index _ (0 : Fin 2) * 5000 + 5000
    rw [e0, ptOut_val]
    show (20 + (i 0).val / 5000 - 20) * 5000 ≤ (i 0).val ∧ (i 0).val < (20 + (i 0).val / 5000 - 20) * 5000 + 5000
    omega
  | ⟨1, _⟩ =>
    show win0_2.index _ (1 : Fin 2) * 128 ≤ (i 1).val ∧ (i 1).val < win0_2.index _ (1 : Fin 2) * 128 + 128
    rw [e1]
    omega

/-- The output array after the run. -/
theorem arrAt_out_eq (c : Dev nD) : (dats m 0 c).arrAt 2 cfg0.N = outArr m c :=
  (dats m 0 c).arrAt_eq_of_cover 2 (outArr m c) (fun t hf => flushed2_eq m c t (ge_of_flush2 t hf)) cover2

theorem arrAt_out (c : Dev nD) (y : S100000x128.Idx) :
    (dats m 0 c).arrAt 2 cfg0.N y
      = outAt m c (ptOut ⟨(y 0).val / 5000, Nat.div_lt_of_lt_mul (y 0).isLt⟩)
          (ix2 (⟨(y 0).val % 5000, Nat.mod_lt _ (by norm_num)⟩ : Fin 5000) (⟨(y 1).val, (y 1).isLt⟩ : Fin 128)) :=
  congrFun (arrAt_out_eq m c) y

/-! ## The program's result -/

/-- The one operation after the region transposes the output array. -/
theorem result_eq (c : Dev nD) :
    Pipeline.afterTail₀ cfgs (dats m) 0 (V0 m) [hostOps1] c main_v3
      = transpose S128x100000 [1, 0] ((dats m 0 c).arrAt 2 cfg0.N) transposes_S100000x128_S128x100000_1_0 := by
  unfold Pipeline.afterTail₀
  show StableHlo.after hostOps1 _ (Proc.devRef .tc main_v3) = _
  after_results
  exact congrArg (fun x => transpose S128x100000 [1, 0] x transposes_S100000x128_S128x100000_1_0)
    (Pipeline.withArrays_arr spec0 launch0.win.arr_inj c _ _ 2)

/-- The result at (b, r) is entry (r mod 5000, b) of the block that point 20 + r / 5000 leaves. -/
theorem result_apply (c : Dev nD) (i : S128x100000.Idx) :
    Pipeline.afterTail₀ cfgs (dats m) 0 (V0 m) [hostOps1] c main_v3 i
      = outAt m c (ptOut ⟨(i 1).val / 5000, Nat.div_lt_of_lt_mul (i 1).isLt⟩)
          (ix2 (⟨(i 1).val % 5000, Nat.mod_lt _ (by norm_num)⟩ : Fin 5000) (⟨(i 0).val, (i 0).isLt⟩ : Fin 128)) := by
  rw [result_eq]
  refine (transpose_apply [1, 0] _ transposes_S100000x128_S128x100000_1_0 i
    (ix2 (⟨(i 1).val, (i 1).isLt⟩ : Fin 100000) (⟨(i 0).val, (i 0).isLt⟩ : Fin 128)) (fun b => ?_)).trans ?_
  · match b with
    | ⟨0, _⟩ => rfl
    | ⟨1, _⟩ => rfl
  · exact arrAt_out m c _

end Cert.KernelIdeal.Body

end
-- ==== Proof.Payloads.lean ====
/-
  The arithmetic of the two-pass softmax body, read one element at a time.

  Every value the body stores is a short chain of vector operations over the blocks it loaded.  Read at the
  ideal values (the extended reals) and at one index `(q, b)` — row `q` of the block, lane `b` — each chain
  collapses to a closed expression in the loaded blocks' elements:

  * the column maximum of a block is the fold of `max` from `⊥` down the block's rows;
  * the block's exponentials are `exp (s q b - that maximum)`, with `s q b` the sum of the two loaded blocks;
  * their column sum is the `Fin`-indexed sum of those exponentials down the rows;
  * the combining step turns the 20 chunk maxima `mb` and chunk sums `pb` into the factor
    `exp (mb j b - max_j' mb j' b) * (1 / Σ_j' exp (mb j' b - max_j'' mb j'' b) * pb j' b)`;
  * the last step multiplies a stored exponential by its chunk's factor.

  The pointwise operations read through an index definitionally; the three operations that move data between
  shapes (the cast that adds a leading unit axis, the broadcast of one row over many, the reduction down the rows)
  each get one small lemma at an index given by its coordinates.
-/
import proofs.«140306_g81492709474519_cont_9to1c4b_556_12_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.KernelIdeal Cert.KernelIdeal.Gen

namespace Cert.KernelIdeal.PayloadAt

/-! ## The three accumulator and constant words -/

/-- The word `0xFF800000` is minus infinity: sign set, exponent all ones, significand zero. -/
theorem ofBits_negInf_f32 : Ideal.ofBits .f32 0xFF800000#32 = ⊥ := by simp [Ideal.ofBits, Ideal.ieee]

/-- The word `0x3F800000` is one: exponent equal to the bias, significand zero. -/
theorem ofBits_one_f32 : Ideal.ofBits .f32 0x3F800000#32 = 1 := by
  simp [Ideal.ofBits, Ideal.ieee]
  rw [← EReal.coe_mul, ← EReal.coe_one]
  exact congrArg _ (by norm_num)

/-! ## Reductions down the rows of an `[n, 128]` block -/

/-- The row index inserted over lane `b` at row `q` is `(q, b)`. -/
theorem lift_rows {n : Nat} (h : Shape.Reduces ⟨2, ![n, 128]⟩ [0] ⟨1, ![128]⟩) (b : Fin 128) (q : Fin n) :
    h.lift (ix1 b) q = ix2 q b := by
  funext c
  match c with
  | ⟨0, _⟩ => rfl
  | ⟨1, _⟩ => rfl

/-- The maximum down the rows, from minus infinity: at lane `b` the fold of `max` from `⊥` over the rows. -/
theorem rowsMax_apply {n : Nat} (src : FVec Ideal ⟨2, ![n, 128]⟩ .f32)
    (h : Shape.Reduces ⟨2, ![n, 128]⟩ [0] ⟨1, ![128]⟩) (hφ : FKind.Formats .f32)
    (hacc : (0xFF800000#32 : BitVec 32) = FKind.maximumf.neutral .f32 hφ) (b : Fin 128) :
    multiReduction (F := Ideal) .maximumf [0] ⟨1, ![128]⟩ src 0xFF800000#32 h hφ hacc (ix1 b)
      = (Finset.univ : Finset (Fin n)).fold max ⊥ (fun q => src (ix2 q b)) := by
  refine (Ideal.multiReduction_maximumf_single src _ h hφ hacc (ix1 b)).trans ?_
  show (Finset.univ : Finset (Fin n)).fold max (Ideal.ofBits .f32 0xFF800000#32) (fun q => src (h.lift (ix1 b) q)) = _
  rw [ofBits_negInf_f32]
  exact congrArg (fun g => (Finset.univ : Finset (Fin n)).fold max ⊥ g) (funext fun q => congrArg src (lift_rows h b q))

/-- The sum down the rows: at lane `b` the sum over the rows. -/
theorem rowsSum_apply {n : Nat} (src : FVec Ideal ⟨2, ![n, 128]⟩ .f32)
    (h : Shape.Reduces ⟨2, ![n, 128]⟩ [0] ⟨1, ![128]⟩) (hφ : FKind.Formats .f32)
    (hacc : (0x00000000#32 : BitVec 32) = FKind.add.neutral .f32 hφ) (b : Fin 128) :
    multiReduction (F := Ideal) .add [0] ⟨1, ![128]⟩ src 0x00000000#32 h hφ hacc (ix1 b)
      = ∑ q : Fin n, src (ix2 q b) := by
  refine (Ideal.multiReduction_add_single src _ h hφ hacc (ix1 b)).trans ?_
  show ∑ q : Fin n, src (h.lift (ix1 b) q) = _
  exact Finset.sum_congr rfl (fun q _ => congrArg src (lift_rows h b q))

/-! ## The first pass: one chunk's maximum, exponentials and sum -/

/-- The sum of the two loaded blocks. -/
theorem pay1_apply (v9 v11 : Vec Ideal S5000x128 .f32) (i : S5000x128.Idx) :
    k0_pay1 (F := Ideal) v9 v11 i = v9 i + v11 i := by
  unfold k0_pay1
  rw [shapeCast_self, shapeCast_self]
  rfl

/-- The chunk's maximum in lane `b`, kept as a one-row block. -/
theorem pay2_apply (v9 v11 : Vec Ideal S5000x128 .f32) (z : Fin 1) (b : Fin 128) :
    k0_pay2 (F := Ideal) v9 v11 (ix2 z b)
      = (Finset.univ : Finset (Fin 5000)).fold max ⊥ (fun q => v9 (ix2 q b) + v11 (ix2 q b)) := by
  unfold k0_pay2
  refine (shapeCast_a_1a_apply _ _ z b).trans ?_
  refine (rowsMax_apply (k0_pay1 (F := Ideal) v9 v11) _ _ _ b).trans ?_
  exact congrArg (fun g => (Finset.univ : Finset (Fin 5000)).fold max ⊥ g) (funext fun q => pay1_apply v9 v11 (ix2 q b))

/-- The chunk's exponentials, against the chunk's own maximum. -/
theorem pay3_apply (v9 v11 : Vec Ideal S5000x128 .f32) (q : Fin 5000) (b : Fin 128) :
    k0_pay3 (F := Ideal) v9 v11 (ix2 q b)
      = Ideal.exp (v9 (ix2 q b) + v11 (ix2 q b)
          - (Finset.univ : Finset (Fin 5000)).fold max ⊥ (fun q' => v9 (ix2 q' b) + v11 (ix2 q' b))) := by
  unfold k0_pay3
  show Ideal.exp (k0_pay1 (F := Ideal) v9 v11 (ix2 q b)
      - broadcastTo S5000x128 (k0_pay2 (F := Ideal) v9 v11) broadcasts_S1x128_S5000x128 (ix2 q b)) = _
  rw [pay1_apply, broadcastTo_1b_ab_apply, pay2_apply]

theorem pay5_apply (v9 v11 : Vec Ideal S5000x128 .f32) (z : Fin 1) (b : Fin 128) :
    k0_pay5 (F := Ideal) v9 v11 (ix2 z b)
      = (Finset.univ : Finset (Fin 5000)).fold max ⊥ (fun q => v9 (ix2 q b) + v11 (ix2 q b)) := by
  unfold k0_pay5
  rw [shapeCast_self]
  exact pay2_apply v9 v11 z b

theorem pay4_apply (v9 v11 : Vec Ideal S5000x128 .f32) (q : Fin 5000) (b : Fin 128) :
    k0_pay4 (F := Ideal) v9 v11 (ix2 q b)
      = Ideal.exp (v9 (ix2 q b) + v11 (ix2 q b)
          - (Finset.univ : Finset (Fin 5000)).fold max ⊥ (fun q' => v9 (ix2 q' b) + v11 (ix2 q' b))) := by
  unfold k0_pay4
  rw [shapeCast_self]
  exact pay3_apply v9 v11 q b

theorem pay6_apply (v9 v11 : Vec Ideal S5000x128 .f32) (z : Fin 1) (b : Fin 128) :
    k0_pay6 (F := Ideal) v9 v11 (ix2 z b)
      = ∑ q : Fin 5000, Ideal.exp (v9 (ix2 q b) + v11 (ix2 q b)
          - (Finset.univ : Finset (Fin 5000)).fold max ⊥ (fun q' => v9 (ix2 q' b) + v11 (ix2 q' b))) := by
  unfold k0_pay6
  rw [shapeCast_self]
  refine (shapeCast_a_1a_apply _ _ z b).trans ?_
  refine (rowsSum_apply (k0_pay3 (F := Ideal) v9 v11) _ _ _ b).trans ?_
  exact Finset.sum_congr rfl (fun q _ => pay3_apply v9 v11 q b)

/-! ## The combining step: from the 20 chunk maxima and chunk sums to the 20 factors -/

/-- The maximum of the chunk maxima in lane `b`. -/
abbrev topOf (mb : Vec Ideal S20x128 .f32) (b : Fin 128) : EReal :=
  (Finset.univ : Finset (Fin 20)).fold max ⊥ (fun j' => mb (ix2 j' b))

/-- The block of weights `exp (chunk maximum - overall maximum)`, as the body computes it. -/
def weights (mb : Vec Ideal S20x128 .f32) : FVec Ideal S20x128 .f32 :=
  exp (subf mb (broadcastTo S20x128
    (shapeCast S1x128 (multiReduction (F := Ideal) .maximumf [0] S128 mb 0xFF800000#32 reduces_S20x128_S128 (.inl rfl) rfl)
      shapeCasts_S128_S1x128) broadcasts_S1x128_S20x128))

/-- A weight at `(j, b)`. -/
theorem weights_apply (mb : Vec Ideal S20x128 .f32) (j : Fin 20) (b : Fin 128) :
    weights mb (ix2 j b) = Ideal.exp (mb (ix2 j b) - topOf mb b) := by
  unfold weights
  show Ideal.exp (mb (ix2 j b) - broadcastTo S20x128
    (shapeCast S1x128 (multiReduction (F := Ideal) .maximumf [0] S128 mb 0xFF800000#32 reduces_S20x128_S128 (.inl rfl) rfl)
      shapeCasts_S128_S1x128) broadcasts_S1x128_S20x128 (ix2 j b)) = _
  rw [broadcastTo_1b_ab_apply]
  exact congrArg (fun m => Ideal.exp (mb (ix2 j b) - m))
    ((shapeCast_a_1a_apply _ _ 0 b).trans (rowsMax_apply mb _ _ _ b))

/-- The normalising total, kept as a one-row block: at `(0, b)` the weighted sum of the chunk sums. -/
theorem total_apply (mb pb : Vec Ideal S20x128 .f32) (b : Fin 128) :
    shapeCast S1x128 (multiReduction (F := Ideal) .add [0] S128 (mulf (weights mb) pb) 0x00000000#32
        reduces_S20x128_S128 (.inl rfl) rfl) shapeCasts_S128_S1x128 (ix2 (0 : Fin 1) b)
      = ∑ j' : Fin 20, Ideal.exp (mb (ix2 j' b) - topOf mb b) * pb (ix2 j' b) := by
  refine (shapeCast_a_1a_apply _ _ 0 b).trans ?_
  refine (rowsSum_apply (mulf (weights mb) pb) _ _ _ b).trans ?_
  refine Finset.sum_congr rfl (fun j' _ => ?_)
  rw [mulf_apply, weights_apply]

theorem pay7_apply (mb pb : Vec Ideal S20x128 .f32) (j : Fin 20) (b : Fin 128) :
    k0_pay7 (F := Ideal) mb pb (ix2 j b)
      = Ideal.exp (mb (ix2 j b) - (Finset.univ : Finset (Fin 20)).fold max ⊥ (fun j' => mb (ix2 j' b)))
        * Ideal.div 1 (∑ j' : Fin 20, Ideal.exp (mb (ix2 j' b)
            - (Finset.univ : Finset (Fin 20)).fold max ⊥ (fun j'' => mb (ix2 j'' b))) * pb (ix2 j' b)) := by
  unfold k0_pay7
  rw [shapeCast_self]
  show weights mb (ix2 j b) * broadcastTo S20x128
      (divf (broadcast S1x128 (Scalar.ofBits (F := Ideal) .f32 0x3F800000#32))
        (shapeCast S1x128 (multiReduction (F := Ideal) .add [0] S128 (mulf (weights mb) pb) 0x00000000#32
          reduces_S20x128_S128 (.inl rfl) rfl) shapeCasts_S128_S1x128))
      broadcasts_S1x128_S20x128 (ix2 j b) = _
  rw [broadcastTo_1b_ab_apply, weights_apply]
  show _ * Ideal.div (Ideal.ofBits .f32 0x3F800000#32)
      (shapeCast S1x128 (multiReduction (F := Ideal) .add [0] S128 (mulf (weights mb) pb) 0x00000000#32
          reduces_S20x128_S128 (.inl rfl) rfl) shapeCasts_S128_S1x128 (ix2 (0 : Fin 1) b)) = _
  rw [ofBits_one_f32, total_apply]

/-! ## The second pass: a stored exponential times its chunk's factor -/

theorem pay8_apply (e : Vec Ideal S5000x128 .bf16) (f : Vec Ideal S1x128 .f32) (q : Fin 5000) (b : Fin 128) :
    k0_pay8 (F := Ideal) e f (ix2 q b) = e (ix2 q b) * f (ix2 (0 : Fin 1) b) := by
  unfold k0_pay8
  rw [mulf_apply, broadcastTo_1b_ab_apply]
  rfl

end Cert.KernelIdeal.PayloadAt

end
-- ==== Proof.Spec.lean ====
/-
  The two ways of computing a softmax down the long axis, as plain functions on the extended reals.

  The scores form a table `x r b`: `r` runs over the 100000 entries of one distribution and `b` over the 128
  independent distributions.  The long axis is cut into 20 consecutive chunks of 5000 entries, entry `r` lying
  in chunk `r / 5000` at place `r % 5000`.

  * One pass: `whole x r b = exp (x r b - M b) / (0 + Σ r', exp (x r' b - M b))` with `M b` the maximum of
    column `b` (a fold of `max` from `⊥`).
  * Two passes: every chunk `j` first keeps its own maximum `chunkMax x j b`, the exponentials
    `chunkExp x j q b = exp (x (5000 j + q) b - chunkMax x j b)` and their sum `chunkSum x j b`; the chunk maxima
    are then combined into `topMax x b`, each chunk gets the weight `exp (chunkMax - topMax)`, the total is
    `Σ j, weight j * chunkSum j`, and entry `r` is `chunkExp * (weight * (1 / total))`.

  Both are written with the extended reals' own operations (`Ideal.exp`, `Ideal.div`), so that the two programs'
  terms unfold to them literally; that the two agree on finite tables is proved separately.
-/
import Idealize.ShloMosaic.PureOps.Ideal

noncomputable section

open scoped BigOperators
open Idealize.ShloMosaic

namespace ChunkedSoftmax

/-- Entry `q` of chunk `j` is entry `5000 j + q` of the long axis. -/
def entry (j : Fin 20) (q : Fin 5000) : Fin 100000 := ⟨5000 * j.val + q.val, by omega⟩

/-- The chunk an entry lies in. -/
def chunkOf (r : Fin 100000) : Fin 20 := ⟨r.val / 5000, by omega⟩
/-- Its place inside that chunk. -/
def placeOf (r : Fin 100000) : Fin 5000 := ⟨r.val % 5000, Nat.mod_lt _ (by norm_num)⟩

theorem entry_chunkOf_placeOf (r : Fin 100000) : entry (chunkOf r) (placeOf r) = r :=
  Fin.ext (by simp only [entry, chunkOf, placeOf]; omega)

variable (x : Fin 100000 → Fin 128 → EReal)

/-- The maximum of chunk `j` in column `b`. -/
def chunkMax (j : Fin 20) (b : Fin 128) : EReal :=
  (Finset.univ : Finset (Fin 5000)).fold max ⊥ (fun q => x (entry j q) b)

/-- The chunk's exponentials, taken against the chunk's own maximum. -/
def chunkExp (j : Fin 20) (q : Fin 5000) (b : Fin 128) : EReal :=
  Ideal.exp (x (entry j q) b - chunkMax x j b)

/-- Their sum over the chunk. -/
def chunkSum (j : Fin 20) (b : Fin 128) : EReal := ∑ q : Fin 5000, chunkExp x j q b

/-- The maximum of the chunk maxima. -/
def topMax (b : Fin 128) : EReal :=
  (Finset.univ : Finset (Fin 20)).fold max ⊥ (fun j => chunkMax x j b)

/-- The weight that moves chunk `j` from its own maximum to the common one. -/
def weight (j : Fin 20) (b : Fin 128) : EReal := Ideal.exp (chunkMax x j b - topMax x b)

/-- The normalising total, assembled from the chunks. -/
def total (b : Fin 128) : EReal := ∑ j : Fin 20, weight x j b * chunkSum x j b

/-- The factor chunk `j`'s exponentials are finally multiplied by. -/
def factor (j : Fin 20) (b : Fin 128) : EReal := weight x j b * Ideal.div 1 (total x b)

/-- The two-pass result at entry `r` of column `b`. -/
def chunked (r : Fin 100000) (b : Fin 128) : EReal :=
  chunkExp x (chunkOf r) (placeOf r) b * factor x (chunkOf r) b

/-- The maximum of a whole column. -/
def colMax (b : Fin 128) : EReal :=
  (Finset.univ : Finset (Fin 100000)).fold max ⊥ (fun r => x r b)

/-- The one-pass result at entry `r` of column `b`. -/
def whole (r : Fin 100000) (b : Fin 128) : EReal :=
  Ideal.div (Ideal.exp (x r b - colMax x b)) (0 + ∑ r' : Fin 100000, Ideal.exp (x r' b - colMax x b))

end ChunkedSoftmax

end
-- ==== Proof.Agree.lean ====
/-
  The two-pass softmax agrees with the one-pass softmax on every table of finite scores.

  The argument is elementary.  Choose real witnesses for the scores.  A fold of `max` from `⊥` over a nonempty
  finite family is the family's supremum, which is attained, so every maximum in sight is (the coercion of) a
  real; and the maximum of the chunk maxima is the maximum of the whole column, since the chunks partition the
  column.  On reals, `exp (y - m) * exp (m - M) = exp (y - M)`, so after distributing the weights the assembled
  total is the sum over chunks and places of `exp (y - M)`, which re-indexed along
  `(chunk, place) ↦ 5000 * chunk + place` is the one-pass denominator.  That denominator is a positive real, so
  dividing by it is multiplying by its reciprocal, and the two results are the same product of reals.
-/
import proofs.«140306_g81492709474519_cont_9to1c4b_556_12_alg».proof.Proof.Spec
import Idealize.ShloMosaic.PureOps.Ideal
import Mathlib.Data.EReal.Basic
import Mathlib.Data.EReal.Operations
import Mathlib.Data.EReal.Inv
import Mathlib.Analysis.SpecialFunctions.Exp
import Mathlib.Data.Finset.Fold
import Mathlib.Data.Finset.Lattice.Fold
import Mathlib.Algebra.BigOperators.Group.Finset.Basic
import Mathlib.Algebra.BigOperators.Ring.Finset
import Mathlib.Data.Fintype.BigOperators

noncomputable section

open scoped BigOperators
open Idealize.ShloMosaic

namespace ChunkedSoftmax

/-! ### Real identities -/

/-- Moving an exponential from a local maximum `m` to a common one `M`. -/
theorem exp_sub_mul_exp_sub (y m M : ℝ) : Real.exp (y - m) * Real.exp (m - M) = Real.exp (y - M) := by
  rw [← Real.exp_add]; congr 1; ring

/-- The weighted chunk sums add up to the sum of the re-based exponentials over chunks and places. -/
theorem sum_weight_mul_sum {ι κ : Type*} [Fintype ι] [Fintype κ] (y : ι → κ → ℝ) (m : ι → ℝ) (M : ℝ) :
    ∑ j, Real.exp (m j - M) * ∑ q, Real.exp (y j q - m j) = ∑ j, ∑ q, Real.exp (y j q - M) := by
  refine Finset.sum_congr rfl fun j _ => ?_
  rw [Finset.mul_sum]
  refine Finset.sum_congr rfl fun q _ => ?_
  rw [mul_comm, exp_sub_mul_exp_sub]

/-- A finite sum of exponentials over a nonempty index type is positive. -/
theorem sum_exp_pos {ι : Type*} [Fintype ι] [Nonempty ι] (f : ι → ℝ) : 0 < ∑ i, Real.exp (f i) :=
  Finset.sum_pos (fun i _ => Real.exp_pos (f i)) Finset.univ_nonempty

/-! ### Coercions through folds and sums -/

/-- A fold of `max` from `⊥` is the supremum of the family. -/
theorem fold_max_bot_eq_sup {ι : Type*} (s : Finset ι) (g : ι → EReal) : s.fold max ⊥ g = s.sup g := rfl

/-- The supremum of a nonempty finite family of reals, taken in the extended reals, is a real:
    it is attained. -/
theorem exists_real_eq_sup_coe {ι : Type*} [Fintype ι] [Nonempty ι] (f : ι → ℝ) :
    ∃ m : ℝ, (Finset.univ : Finset ι).sup (fun i => (f i : EReal)) = (m : EReal) := by
  obtain ⟨i, _, hi⟩ := Finset.exists_mem_eq_sup (Finset.univ : Finset ι) Finset.univ_nonempty
    (fun i => (f i : EReal))
  exact ⟨f i, hi⟩

/-- A finite sum of coerced reals is the coercion of the sum. -/
theorem sum_coe_eq_coe_sum {ι : Type*} (s : Finset ι) (f : ι → ℝ) :
    ∑ i ∈ s, (f i : EReal) = ((∑ i ∈ s, f i : ℝ) : EReal) := by
  classical
  refine Finset.induction_on s (by simp) fun a t ha ih => ?_
  rw [Finset.sum_insert ha, Finset.sum_insert ha, ih, EReal.coe_add]

/-! ### The chunks partition the column -/

theorem chunkOf_entry (j : Fin 20) (q : Fin 5000) : chunkOf (entry j q) = j :=
  Fin.ext (by simp only [entry, chunkOf]; omega)

theorem placeOf_entry (j : Fin 20) (q : Fin 5000) : placeOf (entry j q) = q :=
  Fin.ext (by simp only [entry, placeOf]; omega)

/-- `(chunk, place) ↦ 5000 * chunk + place` as a bijection onto the long axis. -/
def entryEquiv : Fin 20 × Fin 5000 ≃ Fin 100000 where
  toFun p := entry p.1 p.2
  invFun r := (chunkOf r, placeOf r)
  left_inv p := Prod.ext (chunkOf_entry p.1 p.2) (placeOf_entry p.1 p.2)
  right_inv r := entry_chunkOf_placeOf r

/-- A sum over the long axis is the sum over chunks of the sums over places. -/
theorem sum_entry {α : Type*} [AddCommMonoid α] (f : Fin 100000 → α) :
    ∑ j : Fin 20, ∑ q : Fin 5000, f (entry j q) = ∑ r : Fin 100000, f r := by
  rw [← Fintype.sum_prod_type' (fun j q => f (entry j q))]
  exact Fintype.sum_equiv entryEquiv _ _ (fun _ => rfl)

/-- The supremum of the chunk suprema is the supremum over the long axis. -/
theorem sup_sup_entry (g : Fin 100000 → EReal) :
    (Finset.univ : Finset (Fin 20)).sup (fun j => (Finset.univ : Finset (Fin 5000)).sup (fun q => g (entry j q)))
      = (Finset.univ : Finset (Fin 100000)).sup g := by
  apply le_antisymm
  · exact Finset.sup_le fun j _ => Finset.sup_le fun q _ => Finset.le_sup (Finset.mem_univ (entry j q))
  · refine Finset.sup_le fun r _ => ?_
    have h1 : g r ≤ (Finset.univ : Finset (Fin 5000)).sup (fun q => g (entry (chunkOf r) q)) := by
      have := Finset.le_sup (f := fun q => g (entry (chunkOf r) q)) (Finset.mem_univ (placeOf r))
      rwa [entry_chunkOf_placeOf] at this
    exact h1.trans
      (Finset.le_sup (f := fun j => (Finset.univ : Finset (Fin 5000)).sup (fun q => g (entry j q)))
        (Finset.mem_univ (chunkOf r)))

theorem topMax_eq_colMax (x : Fin 100000 → Fin 128 → EReal) (b : Fin 128) : topMax x b = colMax x b := by
  unfold topMax colMax chunkMax
  simp only [fold_max_bot_eq_sup]
  exact sup_sup_entry (fun r => x r b)

/-! ### The theorem -/

/-- On a table of finite scores the two-pass result is the one-pass result. -/
theorem chunked_eq_whole (x : Fin 100000 → Fin 128 → EReal) (hx : ∀ r b, ∃ v : ℝ, x r b = (v : EReal))
    (r : Fin 100000) (b : Fin 128) : chunked x r b = whole x r b := by
  -- real witnesses of the scores
  choose y hy using hx
  -- every chunk maximum is a real
  have hm : ∀ j : Fin 20, ∃ m : ℝ, chunkMax x j b = (m : EReal) := by
    intro j
    unfold chunkMax
    rw [fold_max_bot_eq_sup]
    simp only [hy]
    exact exists_real_eq_sup_coe (fun q => y (entry j q) b)
  choose m hm using hm
  -- so is their maximum, which is also the column's maximum
  obtain ⟨M, hM⟩ : ∃ M : ℝ, topMax x b = (M : EReal) := by
    unfold topMax
    rw [fold_max_bot_eq_sup]
    simp only [hm]
    exact exists_real_eq_sup_coe m
  have hC : colMax x b = (M : EReal) := by rw [← topMax_eq_colMax, hM]
  -- the pieces of the two-pass computation, as reals
  have hchunkExp : ∀ j q, chunkExp x j q b = ((Real.exp (y (entry j q) b - m j) : ℝ) : EReal) := by
    intro j q
    rw [chunkExp, hy, hm, ← EReal.coe_sub, Ideal.exp_coe]
  have hchunkSum : ∀ j, chunkSum x j b = ((∑ q, Real.exp (y (entry j q) b - m j) : ℝ) : EReal) := by
    intro j
    rw [chunkSum]
    simp only [hchunkExp]
    exact sum_coe_eq_coe_sum _ _
  have hweight : ∀ j, weight x j b = ((Real.exp (m j - M) : ℝ) : EReal) := by
    intro j
    rw [weight, hm, hM, ← EReal.coe_sub, Ideal.exp_coe]
  -- the assembled total is the one-pass denominator
  have htotal : total x b = ((∑ r', Real.exp (y r' b - M) : ℝ) : EReal) := by
    rw [total]
    simp only [hweight, hchunkSum, ← EReal.coe_mul]
    rw [sum_coe_eq_coe_sum, sum_weight_mul_sum (fun j q => y (entry j q) b) m M,
      sum_entry (fun r' => Real.exp (y r' b - M))]
  have hwhole : (0 : EReal) + ∑ r', Ideal.exp (x r' b - colMax x b)
      = ((∑ r', Real.exp (y r' b - M) : ℝ) : EReal) := by
    simp only [hy, hC, ← EReal.coe_sub, Ideal.exp_coe]
    rw [zero_add]
    exact sum_coe_eq_coe_sum _ _
  -- which is a positive real, so dividing by it is multiplying by its reciprocal
  have hS : (0 : ℝ) < ∑ r', Real.exp (y r' b - M) := sum_exp_pos _
  rw [chunked, factor, hchunkExp, hweight, htotal, Ideal.div_coe hS.ne', entry_chunkOf_placeOf, one_mul,
    whole, hwhole, Ideal.div_coe hS.ne', hy, hC, ← EReal.coe_sub, Ideal.exp_coe,
    ← EReal.coe_mul, ← EReal.coe_mul, ← EReal.coe_mul, ← mul_assoc, exp_sub_mul_exp_sub]

end ChunkedSoftmax

end
-- ==== Proof.KIOutValue.lean ====
/-
  What the two-pass body computes, in the vocabulary of the chunked softmax.

  The two argument arrays hold the scores with the 128 independent distributions along the rows and the long axis
  along the columns; the host transposes both before the region, and the region's two input windows cut the
  transposed arrays into 20 consecutive blocks of 5000 rows.  So the block of window `w` at point `j < 20`, read at
  row `q` and lane `b`, is argument `w` at row `b` and column `5000 j + q`.  With `score r b` the sum of the two
  arguments there, the payloads read at an index (the fold of `max`, the exponentials against it, their sum, the
  factor table, the final product) are, term for term, the chunk maximum, chunk exponentials, chunk sum, factor and
  two-pass result of the chunked softmax of `score`.
-/
import proofs.«140306_g81492709474519_cont_9to1c4b_556_12_alg».proof.Proof.KIData
import proofs.«140306_g81492709474519_cont_9to1c4b_556_12_alg».proof.Proof.Payloads
import proofs.«140306_g81492709474519_cont_9to1c4b_556_12_alg».proof.Proof.Spec
import proofs.«140306_g81492709474519_cont_9to1c4b_556_12_alg».proof.Proof.Agree
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Body

open Cert.KernelIdeal Cert.KernelIdeal.Gen Cert.KernelIdeal.PayloadAt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-- The scores: entry `r` of distribution `b` is the sum of the two arguments at row `b`, column `r`. -/
def score (c : Dev nD) : Fin 100000 → Fin 128 → EReal := fun r b =>
  HAdd.hAdd (α := EReal) (β := EReal) (γ := EReal)
    (m ((c : Thread nD τ).loc main_arg0) (ix2 b r)) (m ((c : Thread nD τ).loc main_arg1) (ix2 b r))

/-! ## The input arrays as the region finds them: the arguments transposed -/

/-- Window 0's array is the first argument transposed. -/
theorem V_main_v0 (c : Dev nD) :
    (V m c main_v0 : S100000x128.Idx → EReal)
      = transpose S100000x128 [1, 0] (m ((c : Thread nD τ).loc main_arg0)) transposes_S128x100000_S100000x128_1_0 := by
  show StableHlo.after hostOps0 (fun b => m (c, b)) (Proc.devRef .tc main_v0) = _
  after_results

/-- Window 1's array is the second argument transposed. -/
theorem V_main_v1 (c : Dev nD) :
    (V m c main_v1 : S100000x128.Idx → EReal)
      = transpose S100000x128 [1, 0] (m ((c : Thread nD τ).loc main_arg1)) transposes_S128x100000_S100000x128_1_0 := by
  show StableHlo.after hostOps0 (fun b => m (c, b)) (Proc.devRef .tc main_v1) = _
  after_results

/-! ## The input blocks of the first pass -/

/-- Through the first pass both input windows sit on block `t` of the long axis. -/
theorem idx_first : ∀ t : Fin cfg0.N, t.val < 20 →
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, t.val < 20 →
    win0_0.index t (0 : Fin 2) = t.val ∧ win0_0.index t (1 : Fin 2) = 0
    ∧ win0_1.index t (0 : Fin 2) = t.val ∧ win0_1.index t (1 : Fin 2) = 0)

/-- Row `q`, lane `b` of window 0's block at point `j` is row `5000 j + q`, lane `b` of its array. -/
theorem emb0 (j : Fin 20) (q : Fin 5000) (b : Fin 128) :
    ((cfg0.win 0).blk (pt j)).view.emb (ix2 q b) = ix2 (ChunkedSoftmax.entry j q) b := by
  obtain ⟨e0, e1, -, -⟩ := idx_first (pt j) j.isLt
  funext a; apply Fin.ext
  match a with
  | ⟨0, _⟩ =>
    show win0_0.index (pt j) (0 : Fin 2) * 5000 + 1 * q.val = 5000 * j.val + q.val
    rw [e0, pt_val]; omega
  | ⟨1, _⟩ =>
    show win0_0.index (pt j) (1 : Fin 2) * 128 + 1 * b.val = b.val
    rw [e1]; omega

theorem emb1 (j : Fin 20) (q : Fin 5000) (b : Fin 128) :
    ((cfg0.win 1).blk (pt j)).view.emb (ix2 q b) = ix2 (ChunkedSoftmax.entry j q) b := by
  obtain ⟨-, -, e0, e1⟩ := idx_first (pt j) j.isLt
  funext a; apply Fin.ext
  match a with
  | ⟨0, _⟩ =>
    show win0_1.index (pt j) (0 : Fin 2) * 5000 + 1 * q.val = 5000 * j.val + q.val
    rw [e0, pt_val]; omega
  | ⟨1, _⟩ =>
    show win0_1.index (pt j) (1 : Fin 2) * 128 + 1 * b.val = b.val
    rw [e1]; omega

theorem iblk0_apply (c : Dev nD) (j : Fin 20) (q : Fin 5000) (b : Fin 128) :
    iblk m c 0 (pt j) (ix2 q b) = m ((c : Thread nD τ).loc main_arg0) (ix2 b (ChunkedSoftmax.entry j q)) := by
  show V m c main_v0 (((cfg0.win 0).blk (pt j)).view.emb (ix2 q b)) = _
  rw [emb0, V_main_v0]
  exact transpose_ix2_apply _ _ (ChunkedSoftmax.entry j q) b

theorem iblk1_apply (c : Dev nD) (j : Fin 20) (q : Fin 5000) (b : Fin 128) :
    iblk m c 1 (pt j) (ix2 q b) = m ((c : Thread nD τ).loc main_arg1) (ix2 b (ChunkedSoftmax.entry j q)) := by
  show V m c main_v1 (((cfg0.win 1).blk (pt j)).view.emb (ix2 q b)) = _
  rw [emb1, V_main_v1]
  exact transpose_ix2_apply _ _ (ChunkedSoftmax.entry j q) b

/-! ## Chunk `j`'s exponentials, maximum and sum -/

/-- Two blocks add up, entry by entry, to chunk `j` of a table `x`. -/
def SumsTo (x0 x1 : Vec Ideal S5000x128 .f32) (x : Fin 100000 → Fin 128 → EReal) (j : Fin 20) : Prop :=
  ∀ (q : Fin 5000) (b : Fin 128), x0 (ix2 q b) + x1 (ix2 q b) = x (ChunkedSoftmax.entry j q) b

section OverBlocks
variable (x0 x1 : Vec Ideal S5000x128 .f32) (x : Fin 100000 → Fin 128 → EReal) (j : Fin 20) (hx : SumsTo x0 x1 x j)
include hx

/-- The stored maximum of such a pair of blocks is the chunk maximum of `x`. -/
theorem pay5_chunk (z : Fin 1) (b : Fin 128) :
    k0_pay5 (F := Ideal) x0 x1 (ix2 z b) = ChunkedSoftmax.chunkMax x j b := by
  refine (pay5_apply x0 x1 z b).trans ?_
  unfold ChunkedSoftmax.chunkMax
  exact congrArg (fun g => (Finset.univ : Finset (Fin 5000)).fold max ⊥ g) (funext fun q => hx q b)

/-- The stored exponentials are the chunk exponentials of `x`. -/
theorem pay4_chunk (q : Fin 5000) (b : Fin 128) :
    k0_pay4 (F := Ideal) x0 x1 (ix2 q b) = ChunkedSoftmax.chunkExp x j q b := by
  refine (pay4_apply x0 x1 q b).trans ?_
  unfold ChunkedSoftmax.chunkExp ChunkedSoftmax.chunkMax
  rw [hx q b]
  exact congrArg (fun g => Ideal.exp (x (ChunkedSoftmax.entry j q) b - (Finset.univ : Finset (Fin 5000)).fold max ⊥ g))
    (funext fun q' => hx q' b)

/-- The stored sum is the chunk sum of `x`. -/
theorem pay6_chunk (z : Fin 1) (b : Fin 128) :
    k0_pay6 (F := Ideal) x0 x1 (ix2 z b) = ChunkedSoftmax.chunkSum x j b := by
  refine (pay6_apply x0 x1 z b).trans ?_
  unfold ChunkedSoftmax.chunkSum
  refine Finset.sum_congr rfl (fun q _ => ?_)
  exact (pay4_apply x0 x1 q b).symm.trans (pay4_chunk x0 x1 x j hx q b)

end OverBlocks

/-- The two input blocks of point `j` add up, entry by entry, to the scores of chunk `j`. -/
theorem blocks_add (c : Dev nD) (j : Fin 20) : SumsTo (iblk m c 0 (pt j)) (iblk m c 1 (pt j)) (score m c) j :=
  fun q b => congrArg₂ (fun (u v : EReal) => u + v) (iblk0_apply m c j q b) (iblk1_apply m c j q b)

theorem chM_apply (c : Dev nD) (j : Fin 20) (z : Fin 1) (b : Fin 128) :
    chM m c j (ix2 z b) = ChunkedSoftmax.chunkMax (score m c) j b :=
  pay5_chunk (iblk m c 0 (pt j)) (iblk m c 1 (pt j)) (score m c) j (blocks_add m c j) z b

theorem chE_apply (c : Dev nD) (j : Fin 20) (q : Fin 5000) (b : Fin 128) :
    chE m c j (ix2 q b) = ChunkedSoftmax.chunkExp (score m c) j q b :=
  pay4_chunk (iblk m c 0 (pt j)) (iblk m c 1 (pt j)) (score m c) j (blocks_add m c j) q b

theorem chS_apply (c : Dev nD) (j : Fin 20) (z : Fin 1) (b : Fin 128) :
    chS m c j (ix2 z b) = ChunkedSoftmax.chunkSum (score m c) j b :=
  pay6_chunk (iblk m c 0 (pt j)) (iblk m c 1 (pt j)) (score m c) j (blocks_add m c j) z b

/-! ## The two small tables and the factor table -/

theorem tabMax_apply (c : Dev nD) (j : Fin 20) (b : Fin 128) :
    tabMax m c (ix2 j b) = ChunkedSoftmax.chunkMax (score m c) j b :=
  chM_apply m c j 0 b

theorem tabSum_apply (c : Dev nD) (j : Fin 20) (b : Fin 128) :
    tabSum m c (ix2 j b) = ChunkedSoftmax.chunkSum (score m c) j b :=
  chS_apply m c j 0 b

theorem tabFac_apply (c : Dev nD) (j : Fin 20) (b : Fin 128) :
    tabFac m c (ix2 j b) = ChunkedSoftmax.factor (score m c) j b := by
  unfold tabFac
  refine (pay7_apply (tabMax m c) (tabSum m c) j b).trans ?_
  simp only [tabMax_apply, tabSum_apply]
  rfl

/-! ## The output block of a point of the second pass -/

theorem outAt_apply (c : Dev nD) (t : Fin cfg0.N) (q : Fin 5000) (b : Fin 128) :
    outAt m c t (ix2 q b) = ChunkedSoftmax.chunked (score m c) (ChunkedSoftmax.entry (chunk t) q) b := by
  unfold outAt
  refine (pay8_apply (chE m c (chunk t)) (rowOf (tabFac m c) (chunk t)) q b).trans ?_
  rw [chE_apply]
  show _ * tabFac m c (ix2 (chunk t) b) = _
  rw [tabFac_apply]
  unfold ChunkedSoftmax.chunked
  rw [ChunkedSoftmax.chunkOf_entry, ChunkedSoftmax.placeOf_entry]

end Cert.KernelIdeal.Body

end
-- ==== Proof.RefIsWhole.lean ====
/-
  The reference program, read at one entry, is the one-pass softmax of the summed scores.

  The reference adds the two input tables entrywise, divides by the constant one, and takes a softmax along the long
  axis: subtract each row's maximum, exponentiate, divide by the row's sum of exponentials.  With
  x r b = l (b, r) + g (b, r) the score of entry r in distribution b, this module shows, stage by stage, that

  * dividing by the constant one changes nothing on the extended reals (x / 1 = x · (1/1) = x, at the infinities too);
  * the maximum-reduce along the long axis at row b, started from −∞ = ⊥, is the fold of max from ⊥ over the entries
    r ↦ x r b of that row, and taking the maximum of that with ⊥ once more changes nothing;
  * the two keep-dimension broadcasts read the row's value back at every entry of the row;
  * the sum-reduce started from the zero word is 0 + Σ over the row of the exponentials;

  so the last division is exp (x r b − M b) / (0 + Σ r', exp (x r' b − M b)) with M b the row maximum: the one-pass form.
-/
import proofs.«140306_g81492709474519_cont_9to1c4b_556_12_alg».proof.Proof.Spec
import proofs.«140306_g81492709474519_cont_9to1c4b_556_12_alg».proof.Proof.Gen.ReferenceIdeal.Read
import Idealize.ShloMosaic.Lib.ValueIdx
import Idealize.ShloMosaic.Lib.IdealHost
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The two input tables at the ideal values. -/
abbrev Table : Type := (⟨S128x100000, .f32⟩ : BufTy).Contents (Elt Ideal)

/-- The summed scores: entry r of distribution b. -/
def score (l g : Table) : Fin 100000 → Fin 128 → EReal := fun r b => l (ix2 b r) + g (ix2 b r)

/-! ## Division by one -/

/-- Dividing an extended real by one gives it back, at the infinities too. -/
theorem div_one (y : EReal) : Ideal.div y 1 = y := by
  rw [show (1 : EReal) = ((1 : ℝ) : EReal) from rfl, Ideal.div_coe one_ne_zero, one_div, inv_one, EReal.coe_one, mul_one]

/-- The scores after the division by the constant one are the summed scores. -/
theorem v2_apply (l g : Table) (b : Fin 128) (r : Fin 100000) :
    val_main_v2 (F := Ideal) l g (ix2 b r) = score l g r b := by
  rw [val_main_v2_apply, val_main_v0_apply, val_main_v1_apply, val_main_cst_apply]
  simp only [Ideal.hostDivf_def, Ideal.addf_def, Ideal.ofBits_def, Ideal.ofBits_one_f32, div_one]
  rfl

/-! ## The row maximum -/

/-- The word of −∞ is the least extended real. -/
theorem ofBits_negInf : Ideal.ofBits .f32 0xFF800000#32 = (⊥ : EReal) := by simp [Ideal.ofBits, Ideal.ieee]

/-- The long axis is dropped and the row kept. -/
theorem reduces_row : S128x100000.Reduces [1] S128 := by decide

/-- Row b with entry k put back on the long axis is the index (b, k). -/
theorem lift_row (b : Fin 128) (k : Fin (S128x100000.size 1)) :
    reduces_row.lift (ix1 b) k = ix2 b (⟨k.val, k.isLt⟩ : Fin 100000) := by
  funext a
  apply Fin.ext
  match a with
  | ⟨0, _⟩ => rfl
  | ⟨1, _⟩ => rfl

/-- The maximum-reduce along the long axis, at row b, is the fold of max from ⊥ over the row's scores. -/
theorem v3_apply (l g : Table) (b : Fin 128) :
    val_main_v3 (F := Ideal) l g (ix1 b) = ChunkedSoftmax.colMax (score l g) b := by
  unfold val_main_v3
  rw [Host.reduce_eq_fold_single (FloatOps.maximumf (F := Ideal) (φ := .f32)) _ _ reducesTo_S128x100000_S128_d1 reduces_row h_S_]
  rw [val_main_cst_0_apply, Ideal.ofBits_def, ofBits_negInf]
  have hf : (val_main_v2 (F := Ideal) l g ∘ reduces_row.lift (ix1 b)) = fun r : Fin 100000 => score l g r b :=
    funext fun k => by
      show val_main_v2 (F := Ideal) l g (reduces_row.lift (ix1 b) k) = _
      rw [lift_row, v2_apply]
      rfl
  rw [hf]
  rfl

/-- The scalar −∞ broadcast along the rows reads ⊥. -/
theorem v4_apply (b : Fin 128) : val_main_v4 (F := Ideal) (ix1 b) = (⊥ : EReal) := by
  rw [val_main_v4_apply, val_main_cst_1_apply, Ideal.ofBits_def, ofBits_negInf]

/-- Taking the maximum with −∞ once more leaves the row maximum. -/
theorem v5_apply (l g : Table) (b : Fin 128) :
    val_main_v5 (F := Ideal) l g (ix1 b) = ChunkedSoftmax.colMax (score l g) b := by
  rw [val_main_v5_apply, v4_apply, v3_apply, Ideal.maximumf_def]
  exact max_bot_left _

/-! ## The two broadcasts of a row's value -/

/-- Both keep-dimension broadcasts read entry (b, r) at row b. -/
theorem idx_row (b : Fin 128) (r : Fin 100000) : idx_main_v6 (idx_main_v7 (ix2 b r)) = ix1 b := by
  funext a
  apply Fin.ext
  match a with
  | ⟨0, _⟩ => rfl

theorem idx_row' (b : Fin 128) (r : Fin 100000) : idx_main_v11 (idx_main_v12 (ix2 b r)) = ix1 b := by
  funext a
  apply Fin.ext
  match a with
  | ⟨0, _⟩ => rfl

/-- The row maximum, read at every entry of the row. -/
theorem v7_apply (l g : Table) (b : Fin 128) (r : Fin 100000) :
    val_main_v7 (F := Ideal) l g (ix2 b r) = ChunkedSoftmax.colMax (score l g) b := by
  rw [val_main_v7_apply, val_main_v6_apply, idx_row, v5_apply]

/-! ## The exponentials and their sum -/

/-- The exponential of a score taken against its row's maximum. -/
theorem v9_apply (l g : Table) (b : Fin 128) (r : Fin 100000) :
    val_main_v9 (F := Ideal) l g (ix2 b r)
      = Ideal.exp (score l g r b - ChunkedSoftmax.colMax (score l g) b) := by
  rw [val_main_v9_apply, val_main_v8_apply, v2_apply, v7_apply]
  simp only [Ideal.hostUnary_exp_def, Ideal.subf_def]

/-- The sum-reduce reads entry k of row b at the index (b, k). -/
theorem idx_sum (b : Fin 128) (k : Fin 100000) : idx_main_v10 (ix1 b) k = ix2 b k := by
  funext a
  apply Fin.ext
  match a with
  | ⟨0, _⟩ => rfl
  | ⟨1, _⟩ => rfl

/-- The sum-reduce from the zero word, at row b, is zero plus the row's sum of exponentials. -/
theorem v10_apply (l g : Table) (b : Fin 128) :
    val_main_v10 (F := Ideal) l g (ix1 b)
      = 0 + ∑ r' : Fin 100000, Ideal.exp (score l g r' b - ChunkedSoftmax.colMax (score l g) b) := by
  rw [val_main_v10_apply, val_main_cst_2_apply, Ideal.ofBits_def, Ideal.ofBits_zero_f32]
  refine congrArg (0 + ·) (Finset.sum_congr rfl fun k _ => ?_)
  rw [idx_sum, v9_apply]

/-- The row's sum, read at every entry of the row. -/
theorem v12_apply (l g : Table) (b : Fin 128) (r : Fin 100000) :
    val_main_v12 (F := Ideal) l g (ix2 b r)
      = 0 + ∑ r' : Fin 100000, Ideal.exp (score l g r' b - ChunkedSoftmax.colMax (score l g) b) := by
  rw [val_main_v12_apply, val_main_v11_apply, idx_row', v10_apply]

/-! ## The reference at an entry -/

/-- The reference's result at entry (b, r) is the one-pass softmax of the summed scores. -/
theorem ref_apply_ix (l g : Table) (b : Fin 128) (r : Fin 100000) :
    val_main_v13 (F := Ideal) l g (ix2 b r) = ChunkedSoftmax.whole (score l g) r b := by
  rw [val_main_v13_apply, v9_apply, v12_apply, Ideal.hostDivf_def]
  rfl

/-- The same at any index, with the scores written out. -/
theorem ref_apply (l g : (⟨Cert.ReferenceIdeal.S128x100000, .f32⟩ : BufTy).Contents (Elt Ideal))
    (i : Cert.ReferenceIdeal.S128x100000.Idx) :
    Cert.ReferenceIdeal.Read.val_main_v13 (F := Ideal) l g i
      = ChunkedSoftmax.whole (fun r b => l (ix2 b r) + g (ix2 b r)) (i 1) (i 0) := by
  conv_lhs => rw [eq_ix2 i]
  exact ref_apply_ix l g (i 0) (i 1)

end Cert.ReferenceIdeal.RefValue

end
-- ==== Proof.Finite.lean ====
import proofs.«140306_g81492709474519_cont_9to1c4b_556_12_alg».proof.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

/-!
# Finiteness of the inputs, read back from the precondition

The precondition is the rank-0 bit "every |a0| < +∞ and every |a1| < +∞": an absolute value, a comparison
`<` against the word 0x7F800000 (which is +∞), an and-reduction over both axes from the bit 1, and the
conjunction of the two bits. In the extended reals |x| = max x (-x), and max x (-x) < ⊤ rules out both
x = ⊤ (then x itself is ⊤) and x = ⊥ (then -x is ⊤): what is left is a real number.
-/

noncomputable section

namespace Cert.Proof.Finite

open Idealize.ShloMosaic Idealize.ShloMosaic.ValueIdx

/-- The rank-0 shape has exactly one index. -/
instance : Subsingleton Cert.Pre_finite_inputs.S_.Idx := ⟨fun a b => funext fun d => d.elim0⟩

/-- The f32 word 0x7F800000 (sign 0, exponent all ones, fraction 0) is +∞. -/
theorem ofBits_inf : Ideal.ofBits .f32 0x7F800000#32 = (⊤ : EReal) := by
  simp [Ideal.ofBits, Ideal.ieee]

/-- An extended real whose absolute value max x (-x) is below ⊤ is a real number. -/
theorem real_of_max_neg_lt_top (x : EReal) (h : max x (-x) < ⊤) : ∃ v : ℝ, x = (v : EReal) := by
  induction x using EReal.rec with
  | bot => simp at h
  | coe v => exact ⟨v, rfl⟩
  | top => simp at h

/-- The element fact: the comparison bit "|x| < +∞" being 1 makes x real. The comparison of extended reals is the
bit of the decided order relation, the host's absolute value is max x (-x), and the constant is ⊤. -/
theorem real_of_bit (x : Ideal .f32)
    (h : FloatOps.cmpf .olt (FloatOps.hostAbsf x) (FloatOps.ofBits (F := Ideal) .f32 0x7F800000#32) = 1#1) :
    ∃ v : ℝ, x = (v : EReal) := by
  have h' : BitVec.ofBool (decide (max (x : EReal) (-(x : EReal)) < Ideal.ofBits .f32 0x7F800000#32)) = 1#1 := h
  rw [ofBits_inf] at h'
  refine real_of_max_neg_lt_top x ?_
  by_contra hn
  rw [decide_eq_false hn] at h'
  exact absurd h' (by decide)

/-- The precondition bit being 1 makes every element of both inputs a real number: the conjunction splits into the
two all-reductions, each all-reduction gives the comparison bit at every index, and the bit gives a real. -/
theorem real_of_pre [Cert.Pre_finite_inputs.Facts] (a0 a1 : FVec Ideal Cert.Pre_finite_inputs.S128x100000 .f32)
    (h : Cert.Pre_finite_inputs.fn (F := Ideal) a0 a1 = fun _ => 1#1) :
    (∀ i, ∃ v : ℝ, a0 i = (v : EReal)) ∧ (∀ i, ∃ v : ℝ, a1 i = (v : EReal)) := by
  have h0 := congrFun h ix0
  dsimp only [Cert.Pre_finite_inputs.fn] at h0
  obtain ⟨hA, hB⟩ := IntOp.andi_eq_one.1 h0
  constructor
  · intro i
    have e := Host.reduce_andi_all _ _ _ _ ix0 hA i
    exact real_of_bit (a0 i) e
  · intro i
    have e := Host.reduce_andi_all _ _ _ _ ix0 hB i
    exact real_of_bit (a1 i) e

end Cert.Proof.Finite
-- ==== Proof.Algebraic.lean ====
/-
  The kernel's result is the two-pass softmax of the scores, the reference's the one-pass softmax, and on finite
  scores the two agree.

  The result array after the run is the region's output transposed; the region's output is, block by block, what the
  points of the second pass wrote back; and the block of point `20 + j` at row `q`, lane `b`, is the two-pass value at entry
  `5000 j + q` of distribution `b`.  So the result at `(b, r)` is `chunked score r b`.  The reference's result there is
  `whole score' r b` with `score'` the same sum of the reference's own arguments, which agree with the kernel's.  The
  precondition makes every argument entry a real number, hence every score, and on real scores `chunked = whole`.
-/
import proofs.«140306_g81492709474519_cont_9to1c4b_556_12_alg».proof.Defs
import proofs.«140306_g81492709474519_cont_9to1c4b_556_12_alg».proof.Proof.Gen.Pre_finite_inputs
import proofs.«140306_g81492709474519_cont_9to1c4b_556_12_alg».proof.Proof.Gen.ReferenceIdeal.Run
import proofs.«140306_g81492709474519_cont_9to1c4b_556_12_alg».proof.Proof.Gen.ReferenceIdeal.Read
import proofs.«140306_g81492709474519_cont_9to1c4b_556_12_alg».proof.Proof.KIFrame
import proofs.«140306_g81492709474519_cont_9to1c4b_556_12_alg».proof.Proof.KIFinal
import proofs.«140306_g81492709474519_cont_9to1c4b_556_12_alg».proof.Proof.KIOutValue
import proofs.«140306_g81492709474519_cont_9to1c4b_556_12_alg».proof.Proof.RefIsWhole
import proofs.«140306_g81492709474519_cont_9to1c4b_556_12_alg».proof.Proof.Finite
import proofs.«140306_g81492709474519_cont_9to1c4b_556_12_alg».proof.Proof.Agree

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The point that writes block `j` back works on chunk `j`. -/
theorem chunk_ptOut (j : Fin 20) : chunk (ptOut j) = j :=
  Fin.ext (by show (20 + j.val) % 20 = j.val; have := j.isLt; omega)

/-- The result array after the run, entry by entry: the two-pass softmax of the scores. -/
theorem result_chunked (c : Dev nD) (i : S128x100000.Idx) :
    Pipeline.afterTail₀ cfgs (dats m) 0 (V0 m) [hostOps1] c main_v3 i
      = ChunkedSoftmax.chunked (score m c) ⟨(i 1).val, (i 1).isLt⟩ ⟨(i 0).val, (i 0).isLt⟩ := by
  rw [result_apply, outAt_apply, chunk_ptOut]
  exact congrArg (fun r => ChunkedSoftmax.chunked (score m c) r ⟨(i 0).val, (i 0).isLt⟩)
    (ChunkedSoftmax.entry_chunkOf_placeOf ⟨(i 1).val, (i 1).isLt⟩)

/-- The kernel's run with its result named: the result array ends at the two-pass softmax of the scores, the two
    arguments unchanged. -/
theorem run_value : θ_run defs (onTc (τ := τ) (main (F := Ideal))) ⟨m, fun _ => 0, ρ⟩ (fun r => ∀ c : Dev nD,
      r.2.mem ((c.tc : Thread nD τ).loc main_v3)
          = (fun i : S128x100000.Idx => ChunkedSoftmax.chunked (score m c) ⟨(i 1).val, (i 1).isLt⟩ ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (funext fun i => result_chunked m c i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

/-- Under the precondition every score is a real number. -/
theorem score_real (c : Dev nD)
    (h : Cert.Pre_finite_inputs.fn (F := Ideal) (m ((c.tc : Thread nD τ).loc main_arg0)) (m ((c.tc : Thread nD τ).loc main_arg1)) = fun _ => 1#1)
    (r : Fin 100000) (b : Fin 128) : ∃ v : ℝ, score m c r b = (v : EReal) := by
  obtain ⟨h0, h1⟩ := Cert.Proof.Finite.real_of_pre _ _ h
  obtain ⟨v0, e0⟩ := h0 (ix2 b r)
  obtain ⟨v1, e1⟩ := h1 (ix2 b r)
  refine ⟨v0 + v1, ?_⟩
  unfold score
  rw [e0, e1, EReal.coe_add]

end Cert.KernelIdeal.Body

namespace Cert.Proof.Value

open Idealize.ShloMosaic Idealize.ShloMosaic.TcCoe Idealize.SL.Sem
open Idealize.ShloMosaic.ValueIdx

/-- The two idealized programs, run from memories that agree on the arguments, end with equal results. -/
theorem algebraic : Cert.algebraic_KernelIdeal_ReferenceIdeal := by
  intro m ρ m' ρ' hpre hagree
  refine ⟨fun c => fun i => ChunkedSoftmax.chunked (Cert.KernelIdeal.Body.score m c) ⟨(i 1).val, (i 1).isLt⟩ ⟨(i 0).val, (i 0).isLt⟩,
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  funext i
  rw [Cert.ReferenceIdeal.RefValue.ref_apply]
  exact (ChunkedSoftmax.chunked_eq_whole _ (Cert.KernelIdeal.Body.score_real m c (hpre c)) _ _).symm

end Cert.Proof.Value

end
-- ==== Proof.lean ====
/-
  A softmax down an axis of 100000 entries, for 128 independent distributions, of the sum of two score arrays:
  the kernel computes it in two passes over 20 chunks of 5000 entries, the reference in one.

  First pass (grid points 0 … 19): chunk `j` keeps its own maximum `m_j`, the exponentials `exp (x - m_j)` of its
  entries and their sum `p_j`, in three scratch buffers carried from point to point.  At point 20 the chunk maxima are
  combined into the overall maximum `M`, and each chunk gets the factor `exp (m_j - M) · (1 / Σ_k exp (m_k - M) · p_k)`.
  Second pass (points 20 … 39): chunk `j`'s stored exponentials are multiplied by its factor and written out.  Since
  `exp (x - m_j) · exp (m_j - M) = exp (x - M)` and `Σ_k exp (m_k - M) · p_k = Σ exp (x - M)` over the whole axis, this
  is `exp (x - M) / Σ exp (x - M)`, the reference's value, whenever the scores are real numbers — which the
  precondition (all inputs finite) provides; at the extended reals a change of float format is the identity, so the
  narrower format the exponentials are parked in between the passes plays no part.

  The modules: `Spec` states both computations on the extended reals and `Agree` proves them equal on real tables;
  `KIRuns`, `KIData`, `KIInv`, `KIFrame` run the kernel body at the three kinds of grid point, state what the scratch
  buffers hold between points and conclude the frame (`KRuns` … `KFrame` are the same text for the word-level
  program); `Payloads`, `KIOutValue`, `KIFinal` read the kernel's result entry by entry; `RefIsWhole` reads the
  reference's; `Finite` turns the precondition into real-valuedness; `Frames` and `Algebraic` state the claims.
-/
import proofs.«140306_g81492709474519_cont_9to1c4b_556_12_alg».proof.Defs
import proofs.«140306_g81492709474519_cont_9to1c4b_556_12_alg».proof.Proof.Gen.Kernel
import proofs.«140306_g81492709474519_cont_9to1c4b_556_12_alg».proof.Proof.Gen.KernelIdeal
import proofs.«140306_g81492709474519_cont_9to1c4b_556_12_alg».proof.Proof.Gen.ReferenceIdeal
import proofs.«140306_g81492709474519_cont_9to1c4b_556_12_alg».proof.Proof.Gen.Pre_finite_inputs
import proofs.«140306_g81492709474519_cont_9to1c4b_556_12_alg».proof.Proof.Frames
import proofs.«140306_g81492709474519_cont_9to1c4b_556_12_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Value.algebraic⟩

end Cert.Proof

end
